-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S_ : Shape := ⟨0, ![]⟩
abbrev S1x1600000 : Shape := ⟨2, ![1, 1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  slices_S2x1600000_S1x1600000_1_0 : S2x1600000.Slices ![1, 0] S1x1600000
  shapeCasts_S1x1600000_S1600000 : S1x1600000.ShapeCasts S1600000

variable [Facts]

def fn_part4 {F : FTy → Type} [FloatOps F] (main_v63 : IVec S_ 1) (main_v67 : IVec S1600000 1) (main_c_25 : IVec S_ 1) : IVec S_ 1 :=
  let main_v68 : IVec S_ 1 := (fun x v => Host.reduce IntOp.andi x v reducesTo_S1600000_S_d0 h_S_) main_v67 main_c_25
  let main_v69 : IVec S_ 1 := andi main_v63 main_v68
  main_v69

def fn_part3 {F : FTy → Type} [FloatOps F] (main_arg1 : IVec S2x1600000 32) (main_arg12 : FVec F S384x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S384x128 .f32 := Host.absf main_arg12
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : IVec S1x1600000 32 := (extractStridedSlice S1x1600000 ![1, 0] · slices_S2x1600000_S1x1600000_1_0) main_arg1
  let main_v65 : IVec S1600000 32 := shapeCast S1600000 main_v64 shapeCasts_S1x1600000_S1600000
  let main_c_24 : IVec S_ 32 := constantI S_ 32 0#32
  let main_v66 : IVec S1600000 32 := broadcastInDim S1600000 ![] bcast_S_S1600000 main_c_24
  let main_v67 : IVec S1600000 1 := cmpi .sge main_v65 main_v66
  let main_c_25 : IVec S_ 1 := constantI S_ 1 1#1
  fn_part4 (F := F) main_v63 main_v67 main_c_25

def fn_part2 {F : FTy → Type} [FloatOps F] (main_arg1 : IVec S2x1600000 32) (main_arg8 : FVec F S384x128 .f32) (main_arg9 : FVec F S128 .f32) (main_arg10 : FVec F S384x128 .f32) (main_arg11 : FVec F S128 .f32) (main_arg12 : FVec F S384x128 .f32) (main_arg13 : FVec F S128 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S384x128 .f32) (main_arg9 : FVec F S128 .f32) (main_arg10 : FVec F S384x128 .f32) (main_arg11 : FVec F S128 .f32) (main_arg12 : FVec F S384x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x1600000 32) (main_arg2 : FVec F S1600000 .f32) (main_arg3 : FVec F S50000x128 .f32) (main_arg4 : FVec F S128x128 .f32) (main_arg5 : FVec F S128 .f32) (main_arg6 : FVec F S128x128 .f32) (main_arg7 : FVec F S128 .f32) (main_arg8 : FVec F S384x128 .f32) (main_arg9 : FVec F S128 .f32) (main_arg10 : FVec F S384x128 .f32) (main_arg11 : FVec F S128 .f32) (main_arg12 : FVec F S384x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1x128 : Shape := ⟨2, ![1, 128]⟩
abbrev S2000x128 : Shape := ⟨2, ![2000, 128]⟩
abbrev S1600000x128 : Shape := ⟨2, ![1600000, 128]⟩
abbrev S2000x1 : Shape := ⟨2, ![2000, 1]⟩

abbrev nBuf : Space → Nat
  | .hbm => 96
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S384x128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S50000x1, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S50000x128, .f32⟩
  | .hbm, ⟨64, _⟩ => ⟨S1600000x1, .i32⟩
  | .hbm, ⟨65, _⟩ => ⟨S50000x128, .f32⟩
  | .hbm, ⟨66, _⟩ => ⟨S50000x128, .f32⟩
  | .hbm, ⟨67, _⟩ => ⟨S1600000x1, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S50000x128, .f32⟩
  | .hbm, ⟨81, _⟩ => ⟨S1600000x1, .i32⟩
  | .hbm, ⟨82, _⟩ => ⟨S50000x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S128x128, .f32⟩
  | .hbm, ⟨87, _⟩ => ⟨S128x128, .f32⟩
  | .hbm, ⟨88, _⟩ => ⟨S128x128, .f32⟩
  | .hbm, ⟨89, _⟩ => ⟨S128x128, .f32⟩
  | .hbm, ⟨90, _⟩ => ⟨S128x128, .f32⟩
  | .hbm, ⟨91, _⟩ => ⟨S128x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg13_0 : Ref sig .tc := ⟨.vmem, 33, rfl⟩
abbrev cc2_stg14_0 : Ref sig .tc := ⟨.vmem, 34, rfl⟩
abbrev cc2_stg15_0 : Ref sig .tc := ⟨.vmem, 35, rfl⟩
abbrev cc2_stg16_0 : Ref sig .tc := ⟨.vmem, 36, rfl⟩
abbrev cc2_stg17_0 : Ref sig .tc := ⟨.vmem, 37, rfl⟩
abbrev cc2_stg18_0 : Ref sig .tc := ⟨.vmem, 38, rfl⟩
abbrev cc2_stg18_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc2_sem15_0 : DmaSem sig := 35
abbrev cc2_sem16_0 : DmaSem sig := 36
abbrev cc2_sem17_0 : DmaSem sig := 37
abbrev cc2_sem18_0 : DmaSem sig := 38
abbrev cc2_sem18_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S2000x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S50000_S50000x1 : S50000.ShapeCasts S50000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128x128_S128x128 : S128x128.ShapeCasts S128x128
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .f32 = 32 ∨ (Rect.block (s := S128x128) S128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S128x128.size a
  hwx2_14 : ∀ i : grid2.Coords, EltTy.bits .f32 = 32 ∨ (Rect.block (s := S128x128) S128x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S128x128.size a ≤ S128x128.size a
  hwx2_16 : ∀ i : grid2.Coords, EltTy.bits .f32 = 32 ∨ (Rect.block (s := S128x128) S128x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S1x128.size a ≤ S1x128.size a
  hwx2_17 : ∀ i : grid2.Coords, EltTy.bits .f32 = 32 ∨ (Rect.block (s := S1x128) S1x128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S2000x128.size a ≤ S50000x128.size a
  hwx2_18 : ∀ i : grid2.Coords, EltTy.bits .f32 = 32 ∨ (Rect.block (s := S50000x128) S2000x128.size (cc2_transform_18 i) (hinb2_18 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v57) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v66) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v60) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v61) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v62) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v67) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v63) S128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v64) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v65) S128x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v68) S1x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v69) S2000x128.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x384 : Shape := ⟨2, ![50000, 384]⟩

abbrev nBuf : Space → Nat
  | .hbm => 181
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S50000x128, .f32⟩
  | 4 => ⟨S128x128, .f32⟩
  | 5 => ⟨S128, .f32⟩
  | 6 => ⟨S128x128, .f32⟩
  | 7 => ⟨S128, .f32⟩
  | 8 => ⟨S384x128, .f32⟩
  | 9 => ⟨S128, .f32⟩
  | 10 => ⟨S384x128, .f32⟩
  | 11 => ⟨S128, .f32⟩
  | 12 => ⟨S384x128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S50000x128, .f32⟩
  | 19 => ⟨S_, .f32⟩
  | 20 => ⟨S50000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S50000, .f32⟩
  | 30 => ⟨S50000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x128, .f32⟩
  | 62 => ⟨S1600000x128, .f32⟩
  | 63 => ⟨S_, .f32⟩
  | 64 => ⟨S50000x128, .f32⟩
  | 65 => ⟨S1600000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .f32⟩
  | 80 => ⟨S50000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S50000, .f32⟩
  | 90 => ⟨S50000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S1600000x1, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S1600000x128, .f32⟩
  | 122 => ⟨S1600000x128, .f32⟩
  | 123 => ⟨S_, .f32⟩
  | 124 => ⟨S50000x128, .f32⟩
  | 125 => ⟨S1600000x1, .i32⟩
  | 126 => ⟨S50000x128, .f32⟩
  | 127 => ⟨S50000, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x384, .f32⟩
  | 16 => ⟨S50000x128, .f32⟩
  | 17 => ⟨S1x128, .f32⟩
  | 18 => ⟨S50000x128, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S50000x384, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call0_cst : Ref sig .tc := ⟨.hbm, 75, rfl⟩
abbrev main_call0_v0 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_15 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_18 : Ref sig .tc := ⟨.hbm, 137, rfl⟩
abbrev main_v101 : Ref sig .tc := ⟨.hbm, 138, rfl⟩
abbrev main_v102 : Ref sig .tc := ⟨.hbm, 139, rfl⟩
abbrev main_cst_19 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_20 : Ref sig .tc := ⟨.hbm, 150, rfl⟩
abbrev main_v112 : Ref sig .tc := ⟨.hbm, 151, rfl⟩
abbrev main_v113 : Ref sig .tc := ⟨.hbm, 152, rfl⟩
abbrev main_cst_21 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_22 : Ref sig .tc := ⟨.hbm, 162, rfl⟩
abbrev main_v122 : Ref sig .tc := ⟨.hbm, 163, rfl⟩
abbrev main_v123 : Ref sig .tc := ⟨.hbm, 164, rfl⟩
abbrev main_cst_23 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_24 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x384_S384x128_S50000x128_1_0_0_1_n_n_wf : DotDims.WF S50000x384 S384x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.Spec.lean ====
/-
  The arithmetic of one node row of the two-layer graph convolution with a gated recurrent update, written once
  over the extended reals, at explicit coordinates.

  For a node `r` with feature row `x`, hidden row `h`, aggregated neighbour rows `agg`, own projected row `xw`,
  normalisation `d = deg(r)^(-1/2)` and a bias row `b`, a convolution layer yields `agg k + d * d * xw k + b k`
  at feature `k` (`convAt`); a projection is a row-by-column product with a 128 x 128 weight (`dotAt`); the gate
  `u`, the reset `rr` and the candidate `c` are logistic / tanh of three such products plus a bias, and the new
  hidden value is `u * h + (1 - u) * c` (`gruAt`).  Both programs are read against these functions.
-/
import Idealize.ShloMosaic.PureOps.Ideal
import Mathlib.Algebra.BigOperators.Fin

noncomputable section

namespace Cert.Spec

open Idealize.ShloMosaic

/-- Row `a` against column `q` of the weight `w`: `∑ k, a k * w k q`. -/
def dotAt (a : Fin 128 → EReal) (w : Fin 128 → Fin 128 → EReal) (q : Fin 128) : EReal :=
  ∑ k : Fin 128, a k * w k q

/-- One convolution layer at feature `k` of a node: the neighbours' sum, the self loop `d * d * xw k`, the bias. -/
def convAt (agg xw : Fin 128 → EReal) (d : EReal) (b : Fin 128 → EReal) (k : Fin 128) : EReal :=
  agg k + d * d * xw k + b k

/-- A gate's linear part at feature `q`: three row-by-column products, summed left to right, plus the bias. -/
def lin3 (x g h : Fin 128 → EReal) (wx wg wh : Fin 128 → Fin 128 → EReal) (b : Fin 128 → EReal) (q : Fin 128) : EReal :=
  dotAt x wx q + dotAt g wg q + dotAt h wh q + b q

/-- The gated update of a node's hidden row at feature `q`; `one` is the constant the programs subtract the gate
    from (the word of `1.0`, left unevaluated). -/
def gruAt (one : EReal) (x g h : Fin 128 → EReal)
    (wux wug wuh wrx wrg wrh wcx wcg wch : Fin 128 → Fin 128 → EReal) (bu br bc : Fin 128 → EReal) (q : Fin 128) : EReal :=
  Ideal.logistic (lin3 x g h wux wug wuh bu q) * h q
    + (one - Ideal.logistic (lin3 x g h wux wug wuh bu q))
      * Ideal.tanh (lin3 x g (fun k => Ideal.logistic (lin3 x g h wrx wrg wrh br k) * h k) wcx wcg wch bc q)

/-- A sum over 384 indices is the sum of its three runs of 128: only associativity of `+` is used, so it holds
    on the extended reals with no finiteness assumption. -/
theorem sum384 (f : Fin 384 → EReal) :
    ∑ k : Fin 384, f k
      = (∑ k : Fin 128, f ⟨k.val, by omega⟩) + (∑ k : Fin 128, f ⟨128 + k.val, by omega⟩)
        + (∑ k : Fin 128, f ⟨256 + k.val, by omega⟩) := by
  have h1 : ∑ k : Fin (256 + 128), f k
      = (∑ k : Fin 256, f (Fin.castAdd 128 k)) + ∑ k : Fin 128, f (Fin.natAdd 256 k) :=
    Fin.sum_univ_add (a := 256) (b := 128) f
  have h2 : ∑ k : Fin (128 + 128), f (Fin.castAdd 128 k)
      = (∑ k : Fin 128, f (Fin.castAdd 128 (Fin.castAdd 128 k))) + ∑ k : Fin 128, f (Fin.castAdd 128 (Fin.natAdd 128 k)) :=
    Fin.sum_univ_add (a := 128) (b := 128) (fun k : Fin (128 + 128) => f (Fin.castAdd 128 k))
  exact h1.trans (by rw [h2]; rfl)

end Cert.Spec

end
-- ==== Proof.R0.lean ====
/-
  The first region of the kernel: the node features projected by the first weight, `xw = x · W1`.

  The region sweeps the 50000 rows of `x` in 25 blocks of 2000 rows. At block `t` it multiplies rows
  `2000 t … 2000 t + 1999` of `x` by the whole 128 × 128 weight, into a zero accumulator, and writes the
  2000 × 128 product back to the same rows of the output. A change of float format is the identity on the
  extended reals and a product into a zero accumulator is the plain sum over the contracted index, so row `r`
  of the output, written by block `r / 2000`, is row `r` of `x` against the columns of the weight: at column
  `q` it is `∑ k, x r k * W1 k q`, whatever the arrays held when the region was entered.
-/
import proofs.«156280_j19628000542754_1_alg».proof.Proof.Gen.KernelIdeal.Frame
import proofs.«156280_j19628000542754_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0

open Cert.KernelIdeal Cert.KernelIdeal.Gen
open Idealize.ShloMosaic Idealize.ShloMosaic.TcCoe Idealize.SL.Sem
open Idealize.ShloMosaic.Pipeline (Dat)
open Idealize.ShloMosaic.ValueIdx

/-! ## One block: 2000 rows against the weight -/

/-- The body reads and writes its whole blocks: every offset is zero. -/
theorem hz : (![0, 0] : Fin 2 → Nat) = fun _ => 0 := funext fun a => by fin_cases a <;> rfl

/-- The left operand of the block product is read at (row of the output, contracted index) … -/
theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- … and the right operand at (contracted index, column of the output). -/
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product at row `y`, column `q`: the two format changes are the identity, the accumulator is zero,
    and the one contracted axis has 128 coordinates, so the element is `∑ k, x0 y k * x1 k q`. -/
theorem pay_apply (x0 : Vec Ideal S2000x128 .f32) (x1 : Vec Ideal S128x128 .f32) (y : Fin 2000) (q : Fin 128) :
    k0_pay1 (F := Ideal) x0 x1 (ix2 y q) = ∑ k : Fin 128, x0 (ix2 y k) * x1 (ix2 k q) := by
  unfold k0_pay1
  refine (Ideal.matmul_constant_zero_apply dot_S2000x128_S128x128_S2000x128_1_0_0_1_n_n none _ _ (ix2 y q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 y q) ((ValueIdx.contrEquiv1 dot_S2000x128_S128x128_S2000x128_1_0_0_1_n_n 128 rfl rfl).symm k) = ix2 y k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 y q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]
  rfl

/-- What the body leaves in the output block, from its two input blocks: one store of the block product over the
    whole block, of operands loaded whole. -/
theorem out_apply (x0 : Vec Ideal S2000x128 .f32) (x1 : Vec Ideal S128x128 .f32) (y : Fin 2000) (q : Fin 128) :
    out0_2 (F := Ideal) x0 x1 (ix2 y q) = ∑ k : Fin 128, x0 (ix2 y k) * x1 (ix2 k q) := by
  unfold out0_2
  rw [View.canon_unit_zero hz]
  simp only [View.ld_unit_zero (S := S2000x128) hz, View.ld_unit_zero (S := S128x128) hz]
  exact pay_apply x0 x1 y q

/-! ## The arrays of the region, and the blocks as their rows -/

variable (V : (c : Dev nD) → (b : Ref sig .tc) → Buf (Elt Ideal) ((c : Thread nD τ).loc b))

/-- The node features `x`, as the region finds them. -/
abbrev aX (c : Dev nD) : FVec Ideal S50000x128 .f32 := V c main_arg0
/-- The first weight `W1`, as the region finds it. -/
abbrev aW (c : Dev nD) : FVec Ideal S128x128 .f32 := V c main_arg4
/-- The region's output array after the region. -/
abbrev aOut (c : Dev nD) : FVec Ideal S50000x128 .f32 := (dat0 (F := Ideal) V c).arrAt 2 cfg0.N

/-- The block of `x` at point `t`. -/
abbrev xblk (c : Dev nD) (t : Fin cfg0.N) : Vec Ideal S2000x128 .f32 := iblk0 (F := Ideal) V c 0 t
/-- The block of the weight at point `t`. -/
abbrev wblk (c : Dev nD) (t : Fin cfg0.N) : Vec Ideal S128x128 .f32 := iblk0 (F := Ideal) V c 1 t

/-- The index maps over the 25 points: the blocks of `x` and of the output move down the rows with the point, the
    weight's block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 25 := lt_of_lt_of_eq t.isLt N_0

/-- Row `y` of the block of `x` at point `t` is row `2000 t + y` of `x`. -/
theorem xblk_apply (c : Dev nD) (t : Fin cfg0.N) (y : Fin 2000) (k : Fin 128) (r : Fin 50000)
    (hr : r.val = t.val * 2000 + y.val) :
    xblk V c t (ix2 y k) = aX V c (ix2 r k) := by
  obtain ⟨e0, e1, -, -, -, -⟩ := idx_facts t
  unfold xblk iblk0
  rw [View.read_apply]
  show V c main_arg0 _ = V c main_arg0 _
  congr 1
  funext a
  apply Fin.ext
  match a with
  | ⟨0, _⟩ => show win0_0.index t (0 : Fin 2) * 2000 + 1 * y.val = r.val; rw [e0, hr]; omega
  | ⟨1, _⟩ => show win0_0.index t (1 : Fin 2) * 128 + 1 * k.val = k.val; rw [e1]; omega

/-- The block of the weight, at every point, is the weight. -/
theorem wblk_apply (c : Dev nD) (t : Fin cfg0.N) (k : Fin 128) (q : Fin 128) :
    wblk V c t (ix2 k q) = aW V c (ix2 k q) := by
  obtain ⟨-, -, e0, e1, -, -⟩ := idx_facts t
  unfold wblk iblk0
  rw [View.read_apply]
  show V c main_arg4 _ = V c main_arg4 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-! ## From the blocks to the array -/

/-- The whole product array, index by index: row `i 0` of `x` against column `i 1` of the weight. -/
abbrev xw (c : Dev nD) : FVec Ideal S50000x128 .f32 := fun i =>
  Cert.Spec.dotAt (fun k => aX V c (ix2 (⟨(i 0).val, idx2_lt0 i⟩ : Fin 50000) k)) (fun k q' => aW V c (ix2 k q'))
    (⟨(i 1).val, idx2_lt1 i⟩ : Fin 128)

/-- What point `t` writes back is rows `2000 t … 2000 t + 1999` of the product array. -/
theorem flushed_eq (c : Dev nD) (t : Fin cfg0.N) :
    (dat0 (F := Ideal) V c).flushed 2 t = ((cfg0.win 2).blk t).view.read (Elt Ideal) (xw V c) := by
  show (cfg0.win 2).cut (grid0.coords t) ((dat0 (F := Ideal) V c).after 2 t) = _
  rw [after0_2]
  obtain ⟨-, -, -, -, e0, e1⟩ := idx_facts t
  have ht := point_lt t
  refine funext fun (j : S2000x128.Idx) => ?_
  obtain ⟨y, q, rfl⟩ : ∃ (y : Fin 2000) (q : Fin 128), j = ix2 y q := ⟨j 0, j 1, eq_ix2 j⟩
  have he : ((cfg0.win 2).blk t).view.emb (ix2 y q) = ix2 (⟨t.val * 2000 + y.val, by omega⟩ : Fin 50000) q := by
    funext a
    apply Fin.ext
    match a with
    | ⟨0, _⟩ => show win0_2.index t (0 : Fin 2) * 2000 + 1 * y.val = t.val * 2000 + y.val; rw [e0]; omega
    | ⟨1, _⟩ => show win0_2.index t (1 : Fin 2) * 128 + 1 * q.val = q.val; rw [e1]; omega
  show out0_2 (F := Ideal) (xblk V c t) (wblk V c t) (ix2 y q) = xw V c (((cfg0.win 2).blk t).view.emb (ix2 y q))
  refine (out_apply (xblk V c t) (wblk V c t) y q).trans ?_
  refine Eq.trans ?_ (congrArg (xw V c) he).symm
  show _ = ∑ k : Fin 128, aX V c (ix2 (⟨t.val * 2000 + y.val, _⟩ : Fin 50000) k) * aW V c (ix2 k q)
  refine Finset.sum_congr rfl fun k _ => ?_
  rw [xblk_apply V c t y k ⟨t.val * 2000 + y.val, by omega⟩ rfl, wblk_apply V c t k q]

/-- An index of the output array lies in point `t`'s block iff, on each axis, its coordinate lies in the block's range. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v29).slice (win0_2.rect t)).set ↔ _
  rw [View.set_slice_whole, Rect.mem_set_unit]
  exact Iff.rfl

/-- The 25 blocks cover the array: row `r` lies in the block of point `r / 2000`. -/
theorem cover (i : S50000x128.Idx) :
    ∃ t : Fin cfg0.N, (cfg0.win 2).flush t = true ∧ i ∈ ((cfg0.win 2).blk t).view.set := by
  have h0 : (i 0).val < 50000 := idx2_lt0 i
  have h1 : (i 1).val < 128 := idx2_lt1 i
  have hN : (i 0).val / 2000 < cfg0.N := lt_of_lt_of_eq (show (i 0).val / 2000 < 25 by omega) N_0.symm
  refine ⟨⟨(i 0).val / 2000, hN⟩, flush0_2 _, ?_⟩
  obtain ⟨-, -, -, -, e0, e1⟩ := idx_facts ⟨(i 0).val / 2000, hN⟩
  rw [mem_blk]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win0_2.index ⟨(i 0).val / 2000, hN⟩ (1 : Fin 2) * 128 ≤ (i 1).val ∧ (i 1).val < win0_2.index ⟨(i 0).val / 2000, hN⟩ (1 : Fin 2) * 128 + 128; rw [e1]; omega

/-- The output array after the region is the product array. -/
theorem final (c : Dev nD) : aOut V c = xw V c :=
  (dat0 (F := Ideal) V c).arrAt_eq_of_cover 2 (xw V c) (fun t _ => flushed_eq V c t) cover

/-- The output array after the region at row `r`, column `q`: row `r` of `x` against column `q` of the weight. -/
theorem arr_apply (c : Dev nD) (r : Fin 50000) (q : Fin 128) :
    aOut V c (ValueIdx.ix2 r q) = Cert.Spec.dotAt (fun k => aX V c (ValueIdx.ix2 r k)) (fun k q' => aW V c (ValueIdx.ix2 k q')) q :=
  congrFun (final V c) (ix2 r q)

end Cert.KernelIdeal.R0

end
-- ==== Proof.R1.lean ====
/-
  Region 1 of the kernel program (the first convolution layer combined, rectified, and projected by the second layer's
  weight), read as a function of the arrays the region finds.

  For node `r` and feature `q` the region's output array holds `∑ k, max (agg r k + d r * d r * xw r k + b k) 0 * W k q`:
  first the value the body stores at one element of its block (the pointwise operations, the two keepdims broadcasts, the
  product into a zero accumulator re-indexed to its 128 contracted coordinates); then each input block read at the rows
  the output's block covers (block `t` of a 2000-row window is rows `2000 t + p`; a whole-array window's one block is the
  array); then what a point writes back as block `t` of one whole-array function, the cover of the 50000 rows by the 25
  blocks, and the array after the region.
-/
import proofs.«156280_j19628000542754_1_alg».proof.Proof.Gen.KernelIdeal.Frame
import proofs.«156280_j19628000542754_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.R1

open Cert.KernelIdeal Cert.KernelIdeal.Gen

/-! ## The body's payload at one element -/

/-- The offsets of every access of the body are zero on both axes. -/
theorem hz : (![0, 0] : Fin 2 → Nat) = fun _ => 0 := funext fun a => by fin_cases a <;> rfl

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the row axis the left operand of the product is read at the output's row. -/
theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- On the column axis the left operand is read at the contracted coordinate. -/
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- On the row axis the right operand is read at the contracted coordinate. -/
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- On the column axis the right operand is read at the output's column. -/
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A `[2000, 128]` by `[128, 128]` product into a zero accumulator, read at `(p, q)`: row `p` against column `q`. -/
theorem matmul_apply {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  refine (Ideal.matmul_constant_zero_apply dot_S2000x128_S128x128_S2000x128_1_0_0_1_n_n none A B (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The value the body stores, at row `p` and column `q` of its block: the rectified layer row against column `q` of the weight. -/
theorem pay_apply (d : Vec Ideal S2000x1 .f32) (xw agg : Vec Ideal S2000x128 .f32) (b : Vec Ideal S1x128 .f32) (w : Vec Ideal S128x128 .f32)
    (p : Fin 2000) (q : Fin 128) :
    k1_pay1 d xw agg b w (ix2 p q)
      = ∑ k : Fin 128, max (agg (ix2 p k) + d (ix2 p (0 : Fin 1)) * d (ix2 p (0 : Fin 1)) * xw (ix2 p k) + b (ix2 (0 : Fin 1) k))
          (Ideal.ofBits .f32 0x00000000#32) * w (ix2 k q) := by
  unfold k1_pay1
  refine (matmul_apply _ _ p q).trans ?_
  refine Finset.sum_congr rfl fun k _ => ?_
  simp only [shapeCast_self, truncf_apply, maximumf_apply, addf_apply, mulf_apply, broadcast_apply, broadcastTo_a1_ab_apply, broadcastTo_1b_ab_apply]
  rfl

/-! ## The arrays the region reads and writes, and the row function the output is claimed to be -/

variable (V : (c : Dev nD) → (b : Ref sig .tc) → Buf (Elt Ideal) ((c : Thread nD τ).loc b))

/-- The aggregated neighbour rows. -/
abbrev aAgg (c : Dev nD) : FVec Ideal S50000x128 .f32 := V c main_v42
/-- The nodes' own projected rows. -/
abbrev aXw (c : Dev nD) : FVec Ideal S50000x128 .f32 := V c main_v29
/-- The normalisation, one entry per node, as a column. -/
abbrev aD (c : Dev nD) : FVec Ideal S50000x1 .f32 := V c main_v26
/-- The bias, as a row. -/
abbrev aB (c : Dev nD) : FVec Ideal S1x128 .f32 := V c main_v27
/-- The second layer's weight. -/
abbrev aW (c : Dev nD) : FVec Ideal S128x128 .f32 := V c main_arg6
/-- The region's output array after the region. -/
abbrev aOut (c : Dev nD) : FVec Ideal S50000x128 .f32 := (dat1 (F := Ideal) V c).arrAt 5 cfg1.N

/-- Row `r`, column `q` of the claimed output: the rectified first layer of node `r` against column `q` of the weight. -/
def rowFn (c : Dev nD) (r : Fin 50000) (q : Fin 128) : EReal :=
  ∑ k : Fin 128, max (aAgg V c (ix2 r k) + aD V c (ix2 r (0 : Fin 1)) * aD V c (ix2 r (0 : Fin 1)) * aXw V c (ix2 r k) + aB V c (ix2 (0 : Fin 1) k))
          (Ideal.ofBits .f32 0x00000000#32) * aW V c (ix2 k q)

/-- The claimed output as one function of the array's index. -/
abbrev G (c : Dev nD) : FVec Ideal S50000x128 .f32 := fun i => rowFn V c (i 0) (i 1)

/-! ## Each input block, read where the output's block says -/

/-- The printed index maps over the grid: a row window's block index is the point, a whole-array window's is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the aggregated rows is rows `2000 t + p`. -/
theorem agg_blk (c : Dev nD) (t : Fin cfg1.N) (p : Fin 2000) (k : Fin 128) (r : Fin 50000) (hr : r.val = t.val * 2000 + p.val) :
    (iblk1 V c 0 t : Vec Ideal S2000x128 .f32) (ix2 p k) = aAgg V c (ix2 r k) := by
  obtain ⟨e0, e1, -⟩ := idx_facts t
  show V c main_v42 (((cfg1.win 0).blk t).view.emb (ix2 p k)) = V c main_v42 (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Block `t` of the projected rows is rows `2000 t + p`. -/
theorem xw_blk (c : Dev nD) (t : Fin cfg1.N) (p : Fin 2000) (k : Fin 128) (r : Fin 50000) (hr : r.val = t.val * 2000 + p.val) :
    (iblk1 V c 1 t : Vec Ideal S2000x128 .f32) (ix2 p k) = aXw V c (ix2 r k) := by
  obtain ⟨-, -, e0, e1, -⟩ := idx_facts t
  show V c main_v29 (((cfg1.win 1).blk t).view.emb (ix2 p k)) = V c main_v29 (ix2 r k)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- Block `t` of the normalisation column is entries `2000 t + p`. -/
theorem d_blk (c : Dev nD) (t : Fin cfg1.N) (p : Fin 2000) (r : Fin 50000) (hr : r.val = t.val * 2000 + p.val) :
    (iblk1 V c 2 t : Vec Ideal S2000x1 .f32) (ix2 p (0 : Fin 1)) = aD V c (ix2 r (0 : Fin 1)) := by
  obtain ⟨-, -, -, -, e0, e1, -⟩ := idx_facts t
  show V c main_v26 (((cfg1.win 2).blk t).view.emb (ix2 p (0 : Fin 1))) = V c main_v26 (ix2 r (0 : Fin 1))
  refine congrArg _ (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- The bias window's one block is the bias row. -/
theorem b_blk (c : Dev nD) (t : Fin cfg1.N) (k : Fin 128) :
    (iblk1 V c 3 t : Vec Ideal S1x128 .f32) (ix2 (0 : Fin 1) k) = aB V c (ix2 (0 : Fin 1) k) := by
  obtain ⟨-, -, -, -, -, -, e0, e1, -⟩ := idx_facts t
  show V c main_v27 (((cfg1.win 3).blk t).view.emb (ix2 (0 : Fin 1) k)) = V c main_v27 (ix2 (0 : Fin 1) k)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- The weight window's one block is the weight. -/
theorem w_blk (c : Dev nD) (t : Fin cfg1.N) (k q : Fin 128) :
    (iblk1 V c 4 t : Vec Ideal S128x128 .f32) (ix2 k q) = aW V c (ix2 k q) := by
  obtain ⟨-, -, -, -, -, -, -, -, e0, e1, -⟩ := idx_facts t
  show V c main_arg6 (((cfg1.win 4).blk t).view.emb (ix2 k q)) = V c main_arg6 (ix2 k q)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-! ## What a point writes back, the cover, the array after the region -/

/-- What point `t` writes back is block `t` of `G`: the payload at `(p, q)` of the block, each input block read at
    rows `2000 t + p`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have ht : t.val < 25 := t.isLt
  obtain ⟨-, -, -, -, -, -, -, -, -, -, e0, e1⟩ := idx_facts t
  obtain ⟨r, hr⟩ : ∃ r : Fin 50000, r.val = t.val * 2000 + p.val := ⟨⟨t.val * 2000 + p.val, by omega⟩, rfl⟩
  have hemb : ((cfg1.win 5).blk t).view.emb (ix2 p q) = (ix2 r q : S50000x128.Idx) :=
    funext fun a => Fin.ext (by
      match a with
      | ⟨0, _⟩ => show win1_5.index t (0 : Fin 2) * 2000 + 1 * p.val = r.val; omega
      | ⟨1, _⟩ => show win1_5.index t (1 : Fin 2) * 128 + 1 * q.val = q.val; omega)
  refine (pay_apply (iblk1 V c 2 t) (iblk1 V c 1 t) (iblk1 V c 0 t) (iblk1 V c 3 t) (iblk1 V c 4 t) p q).trans ?_
  show _ = G V c (((cfg1.win 5).blk t).view.emb (ix2 p q))
  rw [hemb]
  show _ = rowFn V c r q
  unfold rowFn
  refine Finset.sum_congr rfl fun k _ => ?_
  rw [agg_blk V c t p k r hr, xw_blk V c t p k r hr, d_blk V c t p r hr, b_blk V c t k, w_blk V c t k q]

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v43).slice (win1_5.rect t)).set ↔ _
  rw [View.set_slice_whole, Rect.mem_set_unit]
  exact Iff.rfl

/-- Row `r` of the array is in the block of point `r / 2000`, which writes back. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 2000 < 25 := by omega
  obtain ⟨-, -, -, -, -, -, -, -, -, -, e0, e1⟩ := idx_facts (⟨(i 0).val / 2000, hlt⟩ : Fin cfg1.N)
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e1]; omega

/-- The output array after the region is `G`. -/
theorem arr_eq (c : Dev nD) : aOut V c = G V c :=
  (dat1 (F := Ideal) V c).arrAt_eq_of_cover 5 (G V c) (fun t _ => flushed_eq V c t) cover

/-- THE REGION'S OUTPUT at row `r`, column `q`: the rectified convolution layer of node `r` against column `q` of the
    second layer's weight. -/
theorem arr_apply (c : Dev nD) (r : Fin 50000) (q : Fin 128) :
    aOut V c (ValueIdx.ix2 r q)
      = Cert.Spec.dotAt
          (fun k => max (Cert.Spec.convAt (fun k' => aAgg V c (ValueIdx.ix2 r k')) (fun k' => aXw V c (ValueIdx.ix2 r k')) (aD V c (ValueIdx.ix2 r 0)) (fun k' => aB V c (ValueIdx.ix2 0 k')) k) (Ideal.ofBits .f32 0x00000000#32))
          (fun k q' => aW V c (ValueIdx.ix2 k q')) q :=
  (congrFun (arr_eq V c) (ix2 r q)).trans rfl

end Cert.KernelIdeal.R1

end
-- ==== Proof.R2A.lean ====
/-
  Region 2 of the kernel, the body's arithmetic. The region computes, for a block of 2000 node rows, the second
  convolution's output `g = logistic (agg + d * d * xw + b)` and then the gated update of the hidden rows:
  with `lin3` a gate's three row-by-weight products plus its bias, `u = logistic (lin3 x g h)`,
  `rr = logistic (lin3 x g h)` at the reset gate's weights, `c = tanh (lin3 x g (rr * h))` at the candidate's, and
  the stored value `u * h + (one - u) * c`. Here that value is read at one row and one lane of the block, over the
  extended reals (where the narrowing of a product's operands is the identity and a product into the zero accumulator
  is a plain sum), as `Cert.Spec.gruAt` of row `p` of the loaded row blocks and of the whole weights and bias rows:
  `out_at`. Every statement is over variables standing for the loaded blocks.
-/
import proofs.«156280_j19628000542754_1_alg».proof.Proof.Gen.KernelIdeal.Frame
import proofs.«156280_j19628000542754_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R2

open Cert.KernelIdeal Cert.KernelIdeal.Gen Idealize.ShloMosaic Idealize.ShloMosaic.ValueIdx

/-! ## The block product at an index

The kernel's nine products all use one set of dimension numbers: rows of a 2000 x 128 block against columns of a
128 x 128 weight, contracting the block's axis 1 with the weight's axis 0. The four facts below say where the two
operand indices of output index `i` and contraction index `q` sit, one axis each. -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a weight into the zero accumulator, at row `p` and column `q`: the row against the column. -/
theorem matmul_at {φ₁ φ₂ : FTy} (a : FVec Ideal S2000x128 φ₁) (w : FVec Ideal S128x128 φ₂) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The two broadcasts -/

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's values at a row and a lane

Every value below is stated over the blocks the body loads, as variables; `p` is a row of the block and `q` a lane. -/

/-- The logistic and the hyperbolic tangent act entry by entry. -/
theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-- The second convolution's output `g`: the logistic of the neighbours' sum, the self loop `d * d * xw` and the bias. -/
theorem g_at (d : FVec Ideal S2000x1 .f32) (xw agg : FVec Ideal S2000x128 .f32) (b : FVec Ideal S1x128 .f32)
    (p : Fin 2000) (q : Fin 128) :
    k2_pay3 (F := Ideal) d xw agg b (ix2 p q)
      = Ideal.logistic (Cert.Spec.convAt (fun k => agg (ix2 p k)) (fun k => xw (ix2 p k)) (d (ix2 p 0)) (fun k => b (ix2 0 k)) q) := by
  unfold k2_pay3
  simp only [shapeCast_self, truncf_apply, logistic_apply, addf_apply, mulf_apply, broadcastTo_1b_ab_apply, broadcastTo_a1_ab_apply]
  rfl

/-- The three products of a gate, summed left to right, before its bias: the update gate's. -/
theorem pay5_at (d : FVec Ideal S2000x1 .f32) (xw agg : FVec Ideal S2000x128 .f32) (b : FVec Ideal S1x128 .f32)
    (x h : FVec Ideal S2000x128 .f32) (wx wg wh : FVec Ideal S128x128 .f32) (p : Fin 2000) (q : Fin 128) :
    k2_pay5 (F := Ideal) d xw agg b x h wx wg wh (ix2 p q)
      = Cert.Spec.dotAt (fun k => x (ix2 p k)) (fun k q' => wx (ix2 k q')) q
        + Cert.Spec.dotAt (fun k => k2_pay3 (F := Ideal) d xw agg b (ix2 p k)) (fun k q' => wg (ix2 k q')) q
        + Cert.Spec.dotAt (fun k => h (ix2 p k)) (fun k q' => wh (ix2 k q')) q := by
  unfold k2_pay5
  simp only [addf_apply, matmul_at, truncf_apply, shapeCast_self, k2_pay2, k2_pay4]
  rfl

/-- The update gate: the logistic of its linear part plus its bias row. -/
theorem pay7_at (v : FVec Ideal S2000x128 .f32) (b : FVec Ideal S1x128 .f32) (p : Fin 2000) (q : Fin 128) :
    k2_pay7 (F := Ideal) v (k2_pay6 (F := Ideal) b) (ix2 p q) = Ideal.logistic (v (ix2 p q) + b (ix2 0 q)) := by
  unfold k2_pay7 k2_pay6
  simp only [shapeCast_self, logistic_apply, addf_apply, broadcastTo_1b_ab_apply]

/-- The candidate's linear part before its bias: the reset gate `rr` is the logistic of its own three products plus
    its bias row, and the third product takes `rr * h` where the other gates take `h`. -/
theorem pay8_at (h : FVec Ideal S2000x128 .f32) (xb gb hb : FVec Ideal S2000x128 .bf16)
    (wrx wrg wrh : FVec Ideal S128x128 .f32) (br : FVec Ideal S1x128 .f32) (wcx wcg wch : FVec Ideal S128x128 .f32)
    (p : Fin 2000) (q : Fin 128) :
    k2_pay8 (F := Ideal) h xb gb hb wrx wrg wrh br wcx wcg wch (ix2 p q)
      = Cert.Spec.dotAt (fun k => xb (ix2 p k)) (fun k q' => wcx (ix2 k q')) q
        + Cert.Spec.dotAt (fun k => gb (ix2 p k)) (fun k q' => wcg (ix2 k q')) q
        + Cert.Spec.dotAt (fun k => Ideal.logistic (Cert.Spec.lin3 (fun k' => xb (ix2 p k')) (fun k' => gb (ix2 p k')) (fun k' => hb (ix2 p k'))
              (fun k' q' => wrx (ix2 k' q')) (fun k' q' => wrg (ix2 k' q')) (fun k' q' => wrh (ix2 k' q')) (fun k' => br (ix2 0 k')) k) * h (ix2 p k))
            (fun k q' => wch (ix2 k q')) q := by
  unfold k2_pay8
  simp only [addf_apply, mulf_apply, matmul_at, truncf_apply, logistic_apply, shapeCast_self, broadcastTo_1b_ab_apply]
  rfl

/-- The stored value: `u * h + (one - u) * tanh (candidate's linear part + its bias)`. -/
theorem pay1_at (h u cl : FVec Ideal S2000x128 .f32) (bc : FVec Ideal S1x128 .f32) (p : Fin 2000) (q : Fin 128) :
    k2_pay1 (F := Ideal) h u cl bc (ix2 p q)
      = u (ix2 p q) * h (ix2 p q)
        + (Ideal.ofBits .f32 0x3F800000#32 - u (ix2 p q)) * Ideal.tanh (cl (ix2 p q) + bc (ix2 0 q)) := by
  unfold k2_pay1
  simp only [shapeCast_self, addf_apply, mulf_apply, subf_apply, tanh_apply, broadcast_apply, broadcastTo_1b_ab_apply]
  rfl

/-! ## The stored block at a row and a lane -/

theorem hz : (![0, 0] : Fin 2 → Nat) = fun _ => 0 := funext fun a => by fin_cases a <;> rfl

/-- What the body leaves in the output's buffer, at row `p` and lane `q`, is the gated update of the row `p` of
    its row blocks against the whole weights and bias rows. -/
theorem out_at (x0 x1 : FVec Ideal S2000x128 .f32) (x2 : FVec Ideal S2000x1 .f32) (x3 : FVec Ideal S1x128 .f32)
    (x4 x5 : FVec Ideal S2000x128 .f32) (x6 x7 x8 : FVec Ideal S128x128 .f32) (x9 : FVec Ideal S1x128 .f32)
    (x10 x11 x12 : FVec Ideal S128x128 .f32) (x13 : FVec Ideal S1x128 .f32) (x14 x15 x16 : FVec Ideal S128x128 .f32)
    (x17 : FVec Ideal S1x128 .f32) (p : Fin 2000) (q : Fin 128) :
    out2_18 (F := Ideal) x0 x1 x2 x3 x4 x5 x6 x7 x8 x9 x10 x11 x12 x13 x14 x15 x16 x17 (ix2 p q)
      = Cert.Spec.gruAt (Ideal.ofBits .f32 0x3F800000#32)
          (fun k => x4 (ix2 p k))
          (fun k => Ideal.logistic (Cert.Spec.convAt (fun k' => x0 (ix2 p k')) (fun k' => x1 (ix2 p k')) (x2 (ix2 p 0)) (fun k' => x3 (ix2 0 k')) k))
          (fun k => x5 (ix2 p k))
          (fun k q' => x6 (ix2 k q')) (fun k q' => x7 (ix2 k q')) (fun k q' => x8 (ix2 k q'))
          (fun k q' => x10 (ix2 k q')) (fun k q' => x11 (ix2 k q')) (fun k q' => x12 (ix2 k q'))
          (fun k q' => x14 (ix2 k q')) (fun k q' => x15 (ix2 k q')) (fun k q' => x16 (ix2 k q'))
          (fun k => x9 (ix2 0 k)) (fun k => x13 (ix2 0 k)) (fun k => x17 (ix2 0 k)) q := by
  unfold out2_18
  rw [View.canon_unit_zero hz]
  simp only [View.ld_unit_zero (S := S2000x128) hz, View.ld_unit_zero (S := S2000x1) hz, View.ld_unit_zero (S := S1x128) hz,
    View.ld_unit_zero (S := S128x128) hz]
  rw [pay1_at, pay7_at, pay5_at, pay8_at]
  simp only [g_at, k2_pay2, k2_pay4, truncf_apply]
  rfl

end Cert.KernelIdeal.R2

end
-- ==== Proof.R2B.lean ====
/-
  Region 2 of the kernel, its arrays and blocks. The region's grid has 25 points; point `t` reads rows
  `t * 2000 … t * 2000 + 1999` of the four 50000 x 128 arrays (neighbours' sums, projected rows, features, hidden
  rows) and of the 50000 x 1 normalisation column, reads the twelve weights and bias rows whole, and writes the same
  rows of the output. Here each array and each window's block gets a name at its literal type, the index maps are
  decided once over the grid, and each block is read off its array: a row block's row `p` is the array's row
  `t * 2000 + p`, a whole-array window's block is the array.
-/
import proofs.«156280_j19628000542754_1_alg».proof.Proof.Gen.KernelIdeal.Frame
import Idealize.ShloMosaic.Lib.Pipeline.Value
import Idealize.ShloMosaic.Lib.ValueIdx

noncomputable section

namespace Cert.KernelIdeal.R2

open Cert.KernelIdeal Cert.KernelIdeal.Gen Idealize.ShloMosaic Idealize.ShloMosaic.ValueIdx

/-! ## The region's arrays and blocks, by name

`V` is what the buffers hold when the region is entered. Each array the region reads, and each window's block at a grid
point, is named at its literal type. -/

open Idealize.ShloMosaic.TcCoe Idealize.SL.Sem
open Idealize.ShloMosaic.Pipeline (Dat)

variable (V : (c : Dev nD) → (b : Ref sig .tc) → Buf (Elt Ideal) ((c : Thread nD τ).loc b))

/-- The neighbours' sums, the projected rows, the normalisation column, the convolution's bias row, the feature rows
    and the hidden rows. -/
abbrev aAgg (c : Dev nD) : FVec Ideal S50000x128 .f32 := V c main_v56
abbrev aXw (c : Dev nD) : FVec Ideal S50000x128 .f32 := V c main_v43
abbrev aD (c : Dev nD) : FVec Ideal S50000x1 .f32 := V c main_v26
abbrev aB2 (c : Dev nD) : FVec Ideal S1x128 .f32 := V c main_v28
abbrev aX (c : Dev nD) : FVec Ideal S50000x128 .f32 := V c main_arg0
abbrev aH (c : Dev nD) : FVec Ideal S50000x128 .f32 := V c main_arg3
/-- The update gate's, the reset gate's and the candidate's weights for `x`, `g` and `h`, and their bias rows. -/
abbrev aWux (c : Dev nD) : FVec Ideal S128x128 .f32 := V c main_v57
abbrev aWug (c : Dev nD) : FVec Ideal S128x128 .f32 := V c main_v58
abbrev aWuh (c : Dev nD) : FVec Ideal S128x128 .f32 := V c main_v59
abbrev aWrx (c : Dev nD) : FVec Ideal S128x128 .f32 := V c main_v60
abbrev aWrg (c : Dev nD) : FVec Ideal S128x128 .f32 := V c main_v61
abbrev aWrh (c : Dev nD) : FVec Ideal S128x128 .f32 := V c main_v62
abbrev aWcx (c : Dev nD) : FVec Ideal S128x128 .f32 := V c main_v63
abbrev aWcg (c : Dev nD) : FVec Ideal S128x128 .f32 := V c main_v64
abbrev aWch (c : Dev nD) : FVec Ideal S128x128 .f32 := V c main_v65
abbrev aBu (c : Dev nD) : FVec Ideal S1x128 .f32 := V c main_v66
abbrev aBr (c : Dev nD) : FVec Ideal S1x128 .f32 := V c main_v67
abbrev aBc (c : Dev nD) : FVec Ideal S1x128 .f32 := V c main_v68
/-- The region's output array after the region. -/
abbrev aOut (c : Dev nD) : FVec Ideal S50000x128 .f32 := (dat2 (F := Ideal) V c).arrAt 18 cfg2.N

/-- The blocks of the eighteen input windows at grid point `t`. -/
abbrev bAgg (c : Dev nD) (t : Fin cfg2.N) : FVec Ideal S2000x128 .f32 := iblk2 V c 0 t
abbrev bXw (c : Dev nD) (t : Fin cfg2.N) : FVec Ideal S2000x128 .f32 := iblk2 V c 1 t
abbrev bX (c : Dev nD) (t : Fin cfg2.N) : FVec Ideal S2000x128 .f32 := iblk2 V c 4 t
abbrev bH (c : Dev nD) (t : Fin cfg2.N) : FVec Ideal S2000x128 .f32 := iblk2 V c 5 t
abbrev bD (c : Dev nD) (t : Fin cfg2.N) : FVec Ideal S2000x1 .f32 := iblk2 V c 2 t
abbrev bB2 (c : Dev nD) (t : Fin cfg2.N) : FVec Ideal S1x128 .f32 := iblk2 V c 3 t
abbrev bBu (c : Dev nD) (t : Fin cfg2.N) : FVec Ideal S1x128 .f32 := iblk2 V c 9 t
abbrev bBr (c : Dev nD) (t : Fin cfg2.N) : FVec Ideal S1x128 .f32 := iblk2 V c 13 t
abbrev bBc (c : Dev nD) (t : Fin cfg2.N) : FVec Ideal S1x128 .f32 := iblk2 V c 17 t
abbrev bWux (c : Dev nD) (t : Fin cfg2.N) : FVec Ideal S128x128 .f32 := iblk2 V c 6 t
abbrev bWug (c : Dev nD) (t : Fin cfg2.N) : FVec Ideal S128x128 .f32 := iblk2 V c 7 t
abbrev bWuh (c : Dev nD) (t : Fin cfg2.N) : FVec Ideal S128x128 .f32 := iblk2 V c 8 t
abbrev bWrx (c : Dev nD) (t : Fin cfg2.N) : FVec Ideal S128x128 .f32 := iblk2 V c 10 t
abbrev bWrg (c : Dev nD) (t : Fin cfg2.N) : FVec Ideal S128x128 .f32 := iblk2 V c 11 t
abbrev bWrh (c : Dev nD) (t : Fin cfg2.N) : FVec Ideal S128x128 .f32 := iblk2 V c 12 t
abbrev bWcx (c : Dev nD) (t : Fin cfg2.N) : FVec Ideal S128x128 .f32 := iblk2 V c 14 t
abbrev bWcg (c : Dev nD) (t : Fin cfg2.N) : FVec Ideal S128x128 .f32 := iblk2 V c 15 t
abbrev bWch (c : Dev nD) (t : Fin cfg2.N) : FVec Ideal S128x128 .f32 := iblk2 V c 16 t

/-! ## Where each window's block sits

The index maps, decided once over the 25 grid points: the six row windows send point `t` to block `(t, 0)`, the
weights' and bias rows' windows send every point to block `(0, 0)`. -/

theorem lt_N : ∀ t : Fin cfg2.N, t.val < 25 := (by decide +kernel : ∀ t : Fin grid2.N, _)
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_4 : ∀ t : Fin cfg2.N, win2_4.index t (0 : Fin 2) = t.val ∧ win2_4.index t (1 : Fin 2) = 0 :=
  (by decide +kernel : ∀ t : Fin grid2.N, _)
theorem idx_5 : ∀ t : Fin cfg2.N, win2_5.index t (0 : Fin 2) = t.val ∧ win2_5.index t (1 : Fin 2) = 0 :=
  (by decide +kernel : ∀ t : Fin grid2.N, _)
theorem idx_18 : ∀ t : Fin cfg2.N, win2_18.index t (0 : Fin 2) = t.val ∧ win2_18.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
theorem idx_9 : ∀ t : Fin cfg2.N, win2_9.index t (0 : Fin 2) = 0 ∧ win2_9.index t (1 : Fin 2) = 0 :=
  (by decide +kernel : ∀ t : Fin grid2.N, _)
theorem idx_10 : ∀ t : Fin cfg2.N, win2_10.index t (0 : Fin 2) = 0 ∧ win2_10.index t (1 : Fin 2) = 0 :=
  (by decide +kernel : ∀ t : Fin grid2.N, _)
theorem idx_11 : ∀ t : Fin cfg2.N, win2_11.index t (0 : Fin 2) = 0 ∧ win2_11.index t (1 : Fin 2) = 0 :=
  (by decide +kernel : ∀ t : Fin grid2.N, _)
theorem idx_12 : ∀ t : Fin cfg2.N, win2_12.index t (0 : Fin 2) = 0 ∧ win2_12.index t (1 : Fin 2) = 0 :=
  (by decide +kernel : ∀ t : Fin grid2.N, _)
theorem idx_13 : ∀ t : Fin cfg2.N, win2_13.index t (0 : Fin 2) = 0 ∧ win2_13.index t (1 : Fin 2) = 0 :=
  (by decide +kernel : ∀ t : Fin grid2.N, _)
theorem idx_14 : ∀ t : Fin cfg2.N, win2_14.index t (0 : Fin 2) = 0 ∧ win2_14.index t (1 : Fin 2) = 0 :=
  (by decide +kernel : ∀ t : Fin grid2.N, _)
theorem idx_15 : ∀ t : Fin cfg2.N, win2_15.index t (0 : Fin 2) = 0 ∧ win2_15.index t (1 : Fin 2) = 0 :=
  (by decide +kernel : ∀ t : Fin grid2.N, _)
theorem idx_16 : ∀ t : Fin cfg2.N, win2_16.index t (0 : Fin 2) = 0 ∧ win2_16.index t (1 : Fin 2) = 0 :=
  (by decide +kernel : ∀ t : Fin grid2.N, _)
theorem idx_17 : ∀ t : Fin cfg2.N, win2_17.index t (0 : Fin 2) = 0 ∧ win2_17.index t (1 : Fin 2) = 0 :=
  (by decide +kernel : ∀ t : Fin grid2.N, _)

/-! ## Each block read off its array

Row `p` of a row window's block at point `t` is row `t * 2000 + p` of the array; a whole-array window's block is
the array. A block's coordinate in the array is the block index times the block size plus the coordinate inside. -/

theorem bAgg_apply (c : Dev nD) (t : Fin cfg2.N) (p : Fin 2000) (q : Fin 128) (r : Fin 50000)
    (hr : r.val = t.val * 2000 + p.val) : bAgg V c t (ix2 p q) = aAgg V c (ix2 r q) := by
  show V c main_v56 (((cfg2.win 0).blk t).view.emb (ix2 p q)) = V c main_v56 (ix2 r q)
  congr 1
  funext a; apply Fin.ext
  match a with
  | ⟨0, _⟩ => show win2_0.index t (0 : Fin 2) * 2000 + 1 * p.val = r.val; rw [(idx_0 t).1, hr]; omega
  | ⟨1, _⟩ => show win2_0.index t (1 : Fin 2) * 128 + 1 * q.val = q.val; rw [(idx_0 t).2]; omega

theorem bXw_apply (c : Dev nD) (t : Fin cfg2.N) (p : Fin 2000) (q : Fin 128) (r : Fin 50000)
    (hr : r.val = t.val * 2000 + p.val) : bXw V c t (ix2 p q) = aXw V c (ix2 r q) := by
  show V c main_v43 (((cfg2.win 1).blk t).view.emb (ix2 p q)) = V c main_v43 (ix2 r q)
  congr 1
  funext a; apply Fin.ext
  match a with
  | ⟨0, _⟩ => show win2_1.index t (0 : Fin 2) * 2000 + 1 * p.val = r.val; rw [(idx_1 t).1, hr]; omega
  | ⟨1, _⟩ => show win2_1.index t (1 : Fin 2) * 128 + 1 * q.val = q.val; rw [(idx_1 t).2]; omega

theorem bX_apply (c : Dev nD) (t : Fin cfg2.N) (p : Fin 2000) (q : Fin 128) (r : Fin 50000)
    (hr : r.val = t.val * 2000 + p.val) : bX V c t (ix2 p q) = aX V c (ix2 r q) := by
  show V c main_arg0 (((cfg2.win 4).blk t).view.emb (ix2 p q)) = V c main_arg0 (ix2 r q)
  congr 1
  funext a; apply Fin.ext
  match a with
  | ⟨0, _⟩ => show win2_4.index t (0 : Fin 2) * 2000 + 1 * p.val = r.val; rw [(idx_4 t).1, hr]; omega
  | ⟨1, _⟩ => show win2_4.index t (1 : Fin 2) * 128 + 1 * q.val = q.val; rw [(idx_4 t).2]; omega

theorem bH_apply (c : Dev nD) (t : Fin cfg2.N) (p : Fin 2000) (q : Fin 128) (r : Fin 50000)
    (hr : r.val = t.val * 2000 + p.val) : bH V c t (ix2 p q) = aH V c (ix2 r q) := by
  show V c main_arg3 (((cfg2.win 5).blk t).view.emb (ix2 p q)) = V c main_arg3 (ix2 r q)
  congr 1
  funext a; apply Fin.ext
  match a with
  | ⟨0, _⟩ => show win2_5.index t (0 : Fin 2) * 2000 + 1 * p.val = r.val; rw [(idx_5 t).1, hr]; omega
  | ⟨1, _⟩ => show win2_5.index t (1 : Fin 2) * 128 + 1 * q.val = q.val; rw [(idx_5 t).2]; omega

theorem bD_apply (c : Dev nD) (t : Fin cfg2.N) (p : Fin 2000) (r : Fin 50000)
    (hr : r.val = t.val * 2000 + p.val) : bD V c t (ix2 p (0 : Fin 1)) = aD V c (ix2 r (0 : Fin 1)) := by
  show V c main_v26 (((cfg2.win 2).blk t).view.emb (ix2 p (0 : Fin 1))) = V c main_v26 (ix2 r (0 : Fin 1))
  congr 1
  funext a; apply Fin.ext
  match a with
  | ⟨0, _⟩ => show win2_2.index t (0 : Fin 2) * 2000 + 1 * p.val = r.val; rw [(idx_2 t).1, hr]; omega
  | ⟨1, _⟩ => show win2_2.index t (1 : Fin 2) * 1 + 1 * 0 = 0; rw [(idx_2 t).2]

theorem bB2_eq (c : Dev nD) (t : Fin cfg2.N) : bB2 V c t = aB2 V c := by
  funext j
  show V c main_v28 (((cfg2.win 3).blk t).view.emb j) = V c main_v28 j
  congr 1
  funext a; apply Fin.ext
  match a with
  | ⟨0, _⟩ => show win2_3.index t (0 : Fin 2) * 1 + 1 * (j 0).val = (j 0).val; rw [(idx_3 t).1]; omega
  | ⟨1, _⟩ => show win2_3.index t (1 : Fin 2) * 128 + 1 * (j 1).val = (j 1).val; rw [(idx_3 t).2]; omega

theorem bBu_eq (c : Dev nD) (t : Fin cfg2.N) : bBu V c t = aBu V c := by
  funext j
  show V c main_v66 (((cfg2.win 9).blk t).view.emb j) = V c main_v66 j
  congr 1
  funext a; apply Fin.ext
  match a with
  | ⟨0, _⟩ => show win2_9.index t (0 : Fin 2) * 1 + 1 * (j 0).val = (j 0).val; rw [(idx_9 t).1]; omega
  | ⟨1, _⟩ => show win2_9.index t (1 : Fin 2) * 128 + 1 * (j 1).val = (j 1).val; rw [(idx_9 t).2]; omega

theorem bBr_eq (c : Dev nD) (t : Fin cfg2.N) : bBr V c t = aBr V c := by
  funext j
  show V c main_v67 (((cfg2.win 13).blk t).view.emb j) = V c main_v67 j
  congr 1
  funext a; apply Fin.ext
  match a with
  | ⟨0, _⟩ => show win2_13.index t (0 : Fin 2) * 1 + 1 * (j 0).val = (j 0).val; rw [(idx_13 t).1]; omega
  | ⟨1, _⟩ => show win2_13.index t (1 : Fin 2) * 128 + 1 * (j 1).val = (j 1).val; rw [(idx_13 t).2]; omega

theorem bBc_eq (c : Dev nD) (t : Fin cfg2.N) : bBc V c t = aBc V c := by
  funext j
  show V c main_v68 (((cfg2.win 17).blk t).view.emb j) = V c main_v68 j
  congr 1
  funext a; apply Fin.ext
  match a with
  | ⟨0, _⟩ => show win2_17.index t (0 : Fin 2) * 1 + 1 * (j 0).val = (j 0).val; rw [(idx_17 t).1]; omega
  | ⟨1, _⟩ => show win2_17.index t (1 : Fin 2) * 128 + 1 * (j 1).val = (j 1).val; rw [(idx_17 t).2]; omega

theorem bWux_eq (c : Dev nD) (t : Fin cfg2.N) : bWux V c t = aWux V c := by
  funext j
  show V c main_v57 (((cfg2.win 6).blk t).view.emb j) = V c main_v57 j
  congr 1
  funext a; apply Fin.ext
  match a with
  | ⟨0, _⟩ => show win2_6.index t (0 : Fin 2) * 128 + 1 * (j 0).val = (j 0).val; rw [(idx_6 t).1]; omega
  | ⟨1, _⟩ => show win2_6.index t (1 : Fin 2) * 128 + 1 * (j 1).val = (j 1).val; rw [(idx_6 t).2]; omega

theorem bWug_eq (c : Dev nD) (t : Fin cfg2.N) : bWug V c t = aWug V c := by
  funext j
  show V c main_v58 (((cfg2.win 7).blk t).view.emb j) = V c main_v58 j
  congr 1
  funext a; apply Fin.ext
  match a with
  | ⟨0, _⟩ => show win2_7.index t (0 : Fin 2) * 128 + 1 * (j 0).val = (j 0).val; rw [(idx_7 t).1]; omega
  | ⟨1, _⟩ => show win2_7.index t (1 : Fin 2) * 128 + 1 * (j 1).val = (j 1).val; rw [(idx_7 t).2]; omega

theorem bWuh_eq (c : Dev nD) (t : Fin cfg2.N) : bWuh V c t = aWuh V c := by
  funext j
  show V c main_v59 (((cfg2.win 8).blk t).view.emb j) = V c main_v59 j
  congr 1
  funext a; apply Fin.ext
  match a with
  | ⟨0, _⟩ => show win2_8.index t (0 : Fin 2) * 128 + 1 * (j 0).val = (j 0).val; rw [(idx_8 t).1]; omega
  | ⟨1, _⟩ => show win2_8.index t (1 : Fin 2) * 128 + 1 * (j 1).val = (j 1).val; rw [(idx_8 t).2]; omega

theorem bWrx_eq (c : Dev nD) (t : Fin cfg2.N) : bWrx V c t = aWrx V c := by
  funext j
  show V c main_v60 (((cfg2.win 10).blk t).view.emb j) = V c main_v60 j
  congr 1
  funext a; apply Fin.ext
  match a with
  | ⟨0, _⟩ => show win2_10.index t (0 : Fin 2) * 128 + 1 * (j 0).val = (j 0).val; rw [(idx_10 t).1]; omega
  | ⟨1, _⟩ => show win2_10.index t (1 : Fin 2) * 128 + 1 * (j 1).val = (j 1).val; rw [(idx_10 t).2]; omega

theorem bWrg_eq (c : Dev nD) (t : Fin cfg2.N) : bWrg V c t = aWrg V c := by
  funext j
  show V c main_v61 (((cfg2.win 11).blk t).view.emb j) = V c main_v61 j
  congr 1
  funext a; apply Fin.ext
  match a with
  | ⟨0, _⟩ => show win2_11.index t (0 : Fin 2) * 128 + 1 * (j 0).val = (j 0).val; rw [(idx_11 t).1]; omega
  | ⟨1, _⟩ => show win2_11.index t (1 : Fin 2) * 128 + 1 * (j 1).val = (j 1).val; rw [(idx_11 t).2]; omega

theorem bWrh_eq (c : Dev nD) (t : Fin cfg2.N) : bWrh V c t = aWrh V c := by
  funext j
  show V c main_v62 (((cfg2.win 12).blk t).view.emb j) = V c main_v62 j
  congr 1
  funext a; apply Fin.ext
  match a with
  | ⟨0, _⟩ => show win2_12.index t (0 : Fin 2) * 128 + 1 * (j 0).val = (j 0).val; rw [(idx_12 t).1]; omega
  | ⟨1, _⟩ => show win2_12.index t (1 : Fin 2) * 128 + 1 * (j 1).val = (j 1).val; rw [(idx_12 t).2]; omega

theorem bWcx_eq (c : Dev nD) (t : Fin cfg2.N) : bWcx V c t = aWcx V c := by
  funext j
  show V c main_v63 (((cfg2.win 14).blk t).view.emb j) = V c main_v63 j
  congr 1
  funext a; apply Fin.ext
  match a with
  | ⟨0, _⟩ => show win2_14.index t (0 : Fin 2) * 128 + 1 * (j 0).val = (j 0).val; rw [(idx_14 t).1]; omega
  | ⟨1, _⟩ => show win2_14.index t (1 : Fin 2) * 128 + 1 * (j 1).val = (j 1).val; rw [(idx_14 t).2]; omega

theorem bWcg_eq (c : Dev nD) (t : Fin cfg2.N) : bWcg V c t = aWcg V c := by
  funext j
  show V c main_v64 (((cfg2.win 15).blk t).view.emb j) = V c main_v64 j
  congr 1
  funext a; apply Fin.ext
  match a with
  | ⟨0, _⟩ => show win2_15.index t (0 : Fin 2) * 128 + 1 * (j 0).val = (j 0).val; rw [(idx_15 t).1]; omega
  | ⟨1, _⟩ => show win2_15.index t (1 : Fin 2) * 128 + 1 * (j 1).val = (j 1).val; rw [(idx_15 t).2]; omega

theorem bWch_eq (c : Dev nD) (t : Fin cfg2.N) : bWch V c t = aWch V c := by
  funext j
  show V c main_v65 (((cfg2.win 16).blk t).view.emb j) = V c main_v65 j
  congr 1
  funext a; apply Fin.ext
  match a with
  | ⟨0, _⟩ => show win2_16.index t (0 : Fin 2) * 128 + 1 * (j 0).val = (j 0).val; rw [(idx_16 t).1]; omega
  | ⟨1, _⟩ => show win2_16.index t (1 : Fin 2) * 128 + 1 * (j 1).val = (j 1).val; rw [(idx_16 t).2]; omega

/-- Row `p`, lane `q` of the output's block at point `t` is row `t * 2000 + p`, lane `q` of the output array. -/
theorem emb_out (t : Fin cfg2.N) (p : Fin 2000) (q : Fin 128) (r : Fin 50000) (hr : r.val = t.val * 2000 + p.val) :
    (((cfg2.win 18).blk t).view.emb (ix2 p q) : S50000x128.Idx) = ix2 r q := by
  funext a; apply Fin.ext
  match a with
  | ⟨0, _⟩ => show win2_18.index t (0 : Fin 2) * 2000 + 1 * p.val = r.val; rw [(idx_18 t).1, hr]; omega
  | ⟨1, _⟩ => show win2_18.index t (1 : Fin 2) * 128 + 1 * q.val = q.val; rw [(idx_18 t).2]; omega

end Cert.KernelIdeal.R2

end
-- ==== Proof.R2.lean ====
/-
  Region 2 of the kernel, its output array after the region. What grid point `t` writes back is block `t` of one
  function `G` of the region-entry arrays — row `r`, lane `q` of `G` is the gated update `Cert.Spec.gruAt` of row
  `r` of the feature, convolution and hidden arrays against the whole weights and bias rows —, because the body's
  stored value at row `p` of its block is that update of row `p` of the loaded blocks and each loaded block is its
  array's rows `t * 2000 + p` (or the whole array). The 25 blocks cover the 50000 rows (row `r` lies in block
  `r / 2000`), so the array ends holding `G`: `arr_apply`.
-/
import proofs.«156280_j19628000542754_1_alg».proof.Proof.R2A
import proofs.«156280_j19628000542754_1_alg».proof.Proof.R2B
import proofs.«156280_j19628000542754_1_alg».proof.Proof.Spec
import Idealize.ShloMosaic.Lib.Pipeline.Value
import Idealize.ShloMosaic.Lib.ValueIdx

noncomputable section

namespace Cert.KernelIdeal.R2

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The region's result as one function of its arrays -/

/-- Row `r`, lane `q` of the result: the gated update of row `r` of the feature, convolution and hidden arrays
    against the whole weights and bias rows. -/
def gruRow (c : Dev nD) (r : Fin 50000) (q : Fin 128) : EReal :=
  Cert.Spec.gruAt (Ideal.ofBits .f32 0x3F800000#32)
    (fun k => aX V c (ix2 r k))
    (fun k => Ideal.logistic (Cert.Spec.convAt (fun k' => aAgg V c (ix2 r k')) (fun k' => aXw V c (ix2 r k')) (aD V c (ix2 r 0)) (fun k' => aB2 V c (ix2 0 k')) k))
    (fun k => aH V c (ix2 r k))
    (fun k q' => aWux V c (ix2 k q')) (fun k q' => aWug V c (ix2 k q')) (fun k q' => aWuh V c (ix2 k q'))
    (fun k q' => aWrx V c (ix2 k q')) (fun k q' => aWrg V c (ix2 k q')) (fun k q' => aWrh V c (ix2 k q'))
    (fun k q' => aWcx V c (ix2 k q')) (fun k q' => aWcg V c (ix2 k q')) (fun k q' => aWch V c (ix2 k q'))
    (fun k => aBu V c (ix2 0 k)) (fun k => aBr V c (ix2 0 k)) (fun k => aBc V c (ix2 0 k)) q

/-- The whole result array. -/
abbrev G (c : Dev nD) : FVec Ideal S50000x128 .f32 := fun i => gruRow V c (i 0) (i 1)

/-! ## What a grid point writes back, the cover, the array -/

/-- What point `t` writes back is block `t` of `G`: at row `p` and lane `q` of the block the body's stored value is
    the gated update of row `p` of the loaded blocks, each block's row `p` is row `t * 2000 + p` of its array, and the
    weights' and bias rows' blocks are their arrays. -/
theorem flushed_eq (c : Dev nD) (t : Fin cfg2.N) :
    (dat2 (F := Ideal) V c).flushed 18 t = ((cfg2.win 18).blk t).view.read (Elt Ideal) (G V c) := by
  show (cfg2.win 18).cut (grid2.coords t) ((dat2 (F := Ideal) V c).after 18 t) = _
  rw [after2_18]
  funext j
  obtain ⟨p, q, rfl⟩ : ∃ (p : Fin 2000) (q : Fin 128), j = ix2 p q := ⟨j 0, j 1, eq_ix2 j⟩
  have ht : t.val < 25 := lt_N t
  obtain ⟨r, hr⟩ : ∃ r : Fin 50000, r.val = t.val * 2000 + p.val := ⟨⟨t.val * 2000 + p.val, by have := p.isLt; omega⟩, rfl⟩
  show out2_18 (F := Ideal) (bAgg V c t) (bXw V c t) (bD V c t) (bB2 V c t) (bX V c t) (bH V c t) (bWux V c t) (bWug V c t) (bWuh V c t)
      (bBu V c t) (bWrx V c t) (bWrg V c t) (bWrh V c t) (bBr V c t) (bWcx V c t) (bWcg V c t) (bWch V c t) (bBc V c t) (ix2 p q)
    = G V c (((cfg2.win 18).blk t).view.emb (ix2 p q))
  rw [emb_out t p q r hr]
  show _ = gruRow V c r q
  unfold gruRow
  refine (out_at (bAgg V c t) (bXw V c t) (bD V c t) (bB2 V c t) (bX V c t) (bH V c t) (bWux V c t) (bWug V c t) (bWuh V c t)
      (bBu V c t) (bWrx V c t) (bWrg V c t) (bWrh V c t) (bBr V c t) (bWcx V c t) (bWcg V c t) (bWch V c t) (bBc V c t) p q).trans ?_
  rw [bB2_eq, bBu_eq, bBr_eq, bBc_eq, bWux_eq, bWug_eq, bWuh_eq, bWrx_eq, bWrg_eq, bWrh_eq, bWcx_eq, bWcg_eq, bWch_eq]
  simp only [fun k => bAgg_apply V c t p k r hr, fun k => bXw_apply V c t p k r hr, fun k => bX_apply V c t p k r hr,
    fun k => bH_apply V c t p k r hr, bD_apply V c t p r hr]

/-- An index of the output array is in point `t`'s block iff each coordinate is in the block's range on its axis. -/
theorem mem_blk (t : Fin cfg2.N) (i : S50000x128.Idx) :
    i ∈ ((cfg2.win 18).blk t).view.set ↔ ∀ a : Fin 2, win2_18.index t a * S2000x128.size a ≤ (i a).val
      ∧ (i a).val < win2_18.index t a * S2000x128.size a + S2000x128.size a := by
  show i ∈ ((View.whole main_v69).slice (win2_18.rect t)).set ↔ _
  rw [View.set_slice_whole, Rect.mem_set_unit]
  exact Iff.rfl

/-- Row `r` of the output array is covered by point `r / 2000`. -/
theorem cover (i : S50000x128.Idx) :
    ∃ t : Fin cfg2.N, (cfg2.win 18).flush t = true ∧ i ∈ ((cfg2.win 18).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show (i 0).val / 2000 < grid2.N; rw [N_2]; omega⟩, rfl⟩
  refine ⟨t, flush2_18 t, ?_⟩
  rw [mem_blk]
  intro a
  obtain ⟨e0, e1⟩ := idx_18 t
  match a with
  | ⟨0, _⟩ =>
    show win2_18.index t (0 : Fin 2) * 2000 ≤ (i 0).val ∧ (i 0).val < win2_18.index t (0 : Fin 2) * 2000 + 2000
    rw [e0, ht]; omega
  | ⟨1, _⟩ =>
    show win2_18.index t (1 : Fin 2) * 128 ≤ (i 1).val ∧ (i 1).val < win2_18.index t (1 : Fin 2) * 128 + 128
    rw [e1]; omega

/-- The output array after the region is `G`. -/
theorem arr_eq (c : Dev nD) : aOut V c = G V c :=
  (dat2 (F := Ideal) V c).arrAt_eq_of_cover 18 (G V c) (fun t _ => flushed_eq V c t) cover

/-- The region's output array after the region, at row `r` and lane `q`. -/
theorem arr_apply (c : Dev nD) (r : Fin 50000) (q : Fin 128) :
    aOut V c (ValueIdx.ix2 r q)
      = Cert.Spec.gruAt (Ideal.ofBits .f32 0x3F800000#32)
          (fun k => aX V c (ValueIdx.ix2 r k))
          (fun k => Ideal.logistic (Cert.Spec.convAt (fun k' => aAgg V c (ValueIdx.ix2 r k')) (fun k' => aXw V c (ValueIdx.ix2 r k')) (aD V c (ValueIdx.ix2 r 0)) (fun k' => aB2 V c (ValueIdx.ix2 0 k')) k))
          (fun k => aH V c (ValueIdx.ix2 r k))
          (fun k q' => aWux V c (ValueIdx.ix2 k q')) (fun k q' => aWug V c (ValueIdx.ix2 k q')) (fun k q' => aWuh V c (ValueIdx.ix2 k q'))
          (fun k q' => aWrx V c (ValueIdx.ix2 k q')) (fun k q' => aWrg V c (ValueIdx.ix2 k q')) (fun k q' => aWrh V c (ValueIdx.ix2 k q'))
          (fun k q' => aWcx V c (ValueIdx.ix2 k q')) (fun k q' => aWcg V c (ValueIdx.ix2 k q')) (fun k q' => aWch V c (ValueIdx.ix2 k q'))
          (fun k => aBu V c (ValueIdx.ix2 0 k)) (fun k => aBr V c (ValueIdx.ix2 0 k)) (fun k => aBc V c (ValueIdx.ix2 0 k)) q :=
  congrFun (arr_eq V c) (ValueIdx.ix2 r q)

end Cert.KernelIdeal.R2

end
-- ==== Proof.KTerms.lean ====
/-
  The host-side quantities of the kernel's program, as functions of the launch memory: the source and destination
  node of every edge, the weighted in-degree with its self loop `deg = 1 + Σ_{e : dst e = i} w e`, the
  normalisation `dinv = deg^(-1/2)`, the edge coefficient `coef e = dinv (src e) * w e * dinv (dst e)`, and the
  neighbour aggregation `agg xw i = Σ_{e : dst e = i} coef e * xw (src e)` of a projected feature array `xw`.
  Gathers read at the index normalised the Python way (a negative index counts from the end); the two sums
  scatter at the destination as given.
-/
import proofs.«156280_j19628000542754_1_alg».proof.Proof.Gen.KernelIdeal

noncomputable section

namespace Cert.KernelIdeal.KT

open Idealize.ShloMosaic Idealize.SL.Sem Cert.KernelIdeal Cert.KernelIdeal.Gen

variable {F : FTy → Type} [FloatOps F]
variable (m : (ℓ : Loc nD τ sig) → Buf (Elt F) ℓ)

/-- The edges' source nodes: row 0 of the edge index. -/
def src (c : Dev nD) : IVec S1600000 32 :=
  shapeCast _ (extractStridedSlice S1x1600000 ![0, 0] (m ((c.tc : Thread nD τ).loc main_arg1)) slices_S2x1600000_S1x1600000_0_0) shapeCasts_S1x1600000_S1600000

/-- The edges' destination nodes: row 1 of the edge index. -/
def dst (c : Dev nD) : IVec S1600000 32 :=
  shapeCast _ (extractStridedSlice S1x1600000 ![1, 0] (m ((c.tc : Thread nD τ).loc main_arg1)) slices_S2x1600000_S1x1600000_1_0) shapeCasts_S1x1600000_S1600000

/-- An index array normalised for a gather from 50000 rows: a negative entry has 50000 added. -/
def norm (i : IVec S1600000 32) : IVec S1600000 32 :=
  select (cmpi .slt i (broadcastInDim S1600000 ![] bcast_S_S1600000 (constantI S_ 32 0#32)))
    (addi i (broadcastInDim S1600000 ![] bcast_S_S1600000 (constantI S_ 32 50000#32))) i

/-- An index array as the one-column index operand of a gather or scatter. -/
def col (i : IVec S1600000 32) : IVec S1600000x1 32 := broadcastInDim S1600000x1 ![0] bcast_S1600000_S1600000x1_0 i

/-- The edge weights. -/
abbrev wgt (c : Dev nD) : FVec F S1600000 .f32 := m ((c.tc : Thread nD τ).loc main_arg2)

/-- The weighted in-degree with the self loop. -/
def deg (c : Dev nD) : FVec F S50000 .f32 :=
  addf (broadcastInDim S50000 ![] bcast_S_S50000 (constant S_ .f32 0x3F800000#32))
    (Host.scatterAdd scatter_S50000_S1600000x1_S1600000_n_0_0_1
      (broadcastInDim S50000 ![] bcast_S_S50000 (constant S_ .f32 0x00000000#32)) (col (dst m c)) (wgt m c))

/-- The symmetric normalisation. -/
def dinv (c : Dev nD) : FVec F S50000 .f32 := Host.rsqrt (deg m c)

/-- The edge coefficient, from a normalisation vector `d`. -/
def coefOf (c : Dev nD) (d : FVec F S50000 .f32) : FVec F S1600000 .f32 :=
  mulf (mulf (Host.gather gather_S50000_S1600000x1_S1600000_n_0_n_n_0_1_1 d (col (norm (src m c)))) (wgt m c))
    (Host.gather gather_S50000_S1600000x1_S1600000_n_0_n_n_0_1_1 d (col (norm (dst m c))))

/-- The neighbour aggregation of a projected feature array `xw` under edge coefficients `cf`. -/
def aggOf (c : Dev nD) (cf : FVec F S1600000 .f32) (xw : FVec F S50000x128 .f32) : FVec F S50000x128 .f32 :=
  Host.scatterAdd scatter_S50000x128_S1600000x1_S1600000x128_1_0_0_1
    (broadcastInDim S50000x128 ![] bcast_S_S50000x128 (constant S_ .f32 0x00000000#32)) (col (dst m c))
    (mulf (broadcastInDim S1600000x128 ![0, 1] bcast_S1600000x1_S1600000x128_0_1
        (broadcastInDim S1600000x1 ![0] bcast_S1600000_S1600000x1_0 cf))
      (Host.gather gather_S50000x128_S1600000x1_S1600000x128_1_0_n_n_0_1_1128 xw (col (norm (src m c)))))

/-- The kernel's edge coefficient and aggregation. -/
abbrev coef (c : Dev nD) : FVec F S1600000 .f32 := coefOf m c (dinv m c)
abbrev agg (c : Dev nD) (xw : FVec F S50000x128 .f32) : FVec F S50000x128 .f32 := aggOf m c (coef m c) xw

/-- The normalisation as a column, a bias vector as a row. -/
def dcol (c : Dev nD) : FVec F S50000x1 .f32 := shapeCast _ (dinv m c) shapeCasts_S50000_S50000x1
def brow (b : FVec F S128 .f32) : FVec F S1x128 .f32 := shapeCast _ b shapeCasts_S128_S1x128

end Cert.KernelIdeal.KT

end
-- ==== Proof.KHostA.lean ====
/-
  The buffer contents the first two kernel regions find at entry, named by the kernel's host-side quantities.

  Before the first region the host operations compute, from the edge index and the edge weights, the edges' source
  and destination nodes, the weighted in-degree with its self loop, the normalisation `deg^(-1/2)`, and the edge
  coefficient `dinv (src e) * w e * dinv (dst e)`; they write neither the node features nor the first weight matrix,
  which the first region therefore reads as launched. The first region leaves the projected features `x · W` in its
  output array and changes nothing else. The host operations between the two regions gather the projected features at
  the sources, scale each gathered row by its edge's coefficient and scatter-add the rows at the destinations: the
  neighbour aggregation. The second region thus enters on the projected features, their aggregation, the
  normalisation as a column, the first bias as a row and the second weight matrix as launched.
-/
import proofs.«156280_j19628000542754_1_alg».proof.Proof.Gen.KernelIdeal.Frame
import proofs.«156280_j19628000542754_1_alg».proof.Proof.KTerms
import Idealize.ShloMosaic.Lib.StableHlo.Run

set_option maxRecDepth 16384

noncomputable section

namespace Cert.KernelIdeal.KHostA

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- Closes `∀ op ∈ ops, b ∉ op.writes` for a literal line `ops` and a literal reference `b`: every operation writes
    one buffer, and references are told apart by decision. -/
local macro "unwritten" ops:ident : tactic =>
  `(tactic| (refine List.forall_iff_forall_mem.mp ?_
             simp only [$ops:ident, List.flatten_cons, List.flatten_nil, List.append_nil, List.cons_append, List.nil_append,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The projected features `x · W`: what the first region leaves in its output array. -/
abbrev XW1 (c : Dev nD) : FVec F S50000x128 .f32 := (dat0 (V1 m ρ) c).arrAt 2 cfg0.N

/-! ## Entry of the first region: the host operations before it write neither the features nor the weight -/

theorem V1_arg0 (c : Dev nD) : (V1 m ρ c main_arg0 : FVec F S50000x128 .f32) = m ((c.tc : Thread nD τ).loc main_arg0) := by
  show StableHlo.after hostOps0 (W0 m ρ c) (Proc.devRef .tc main_arg0) = _
  exact StableHlo.after_of_forall_not_mem (b := Proc.devRef .tc main_arg0) _ _ (by unwritten hostOps0)

theorem V1_arg4 (c : Dev nD) : (V1 m ρ c main_arg4 : FVec F S128x128 .f32) = m ((c.tc : Thread nD τ).loc main_arg4) := by
  show StableHlo.after hostOps0 (W0 m ρ c) (Proc.devRef .tc main_arg4) = _
  exact StableHlo.after_of_forall_not_mem (b := Proc.devRef .tc main_arg4) _ _ (by unwritten hostOps0)

/-! ## What the first stretch of host operations computes, read at the buffers later stretches use:
    the edges' endpoints, the normalisation, the edge coefficient, the normalisation as a column, the bias as a row -/

theorem W1_v1 (c : Dev nD) : (W1 m ρ c (Proc.devRef .tc main_v1) : IVec S1600000 32) = KT.src m c := by
  show StableHlo.after hostOps0 (W0 m ρ c) (Proc.devRef .tc main_v1) = _
  after_results_simp
  rfl

theorem W1_v3 (c : Dev nD) : (W1 m ρ c (Proc.devRef .tc main_v3) : IVec S1600000 32) = KT.dst m c := by
  show StableHlo.after hostOps0 (W0 m ρ c) (Proc.devRef .tc main_v3) = _
  after_results_simp
  rfl

theorem W1_v9 (c : Dev nD) : (W1 m ρ c (Proc.devRef .tc main_v9) : FVec F S50000 .f32) = KT.dinv m c := by
  show StableHlo.after hostOps0 (W0 m ρ c) (Proc.devRef .tc main_v9) = _
  after_results_simp
  rfl

theorem W1_v25 (c : Dev nD) : (W1 m ρ c (Proc.devRef .tc main_v25) : FVec F S1600000 .f32) = KT.coef m c := by
  show StableHlo.after hostOps0 (W0 m ρ c) (Proc.devRef .tc main_v25) = _
  after_results_simp
  rfl

theorem W1_v26 (c : Dev nD) : (W1 m ρ c (Proc.devRef .tc main_v26) : FVec F S50000x1 .f32) = KT.dcol m c := by
  show StableHlo.after hostOps0 (W0 m ρ c) (Proc.devRef .tc main_v26) = _
  after_results_simp
  rfl

theorem W1_v27 (c : Dev nD) :
    (W1 m ρ c (Proc.devRef .tc main_v27) : FVec F S1x128 .f32) = KT.brow (m ((c.tc : Thread nD τ).loc main_arg5)) := by
  show StableHlo.after hostOps0 (W0 m ρ c) (Proc.devRef .tc main_v27) = _
  after_results_simp
  rfl

/-! ## Exit of the first region: only its output array has changed -/

theorem W2_v1 (c : Dev nD) : (W2 m ρ c (Proc.devRef .tc main_v1) : IVec S1600000 32) = KT.src m c :=
  (W2_of_ne m ρ c main_v1 (by decide)).trans (W1_v1 m ρ c)

theorem W2_v3 (c : Dev nD) : (W2 m ρ c (Proc.devRef .tc main_v3) : IVec S1600000 32) = KT.dst m c :=
  (W2_of_ne m ρ c main_v3 (by decide)).trans (W1_v3 m ρ c)

theorem W2_v25 (c : Dev nD) : (W2 m ρ c (Proc.devRef .tc main_v25) : FVec F S1600000 .f32) = KT.coef m c :=
  (W2_of_ne m ρ c main_v25 (by decide)).trans (W1_v25 m ρ c)

theorem W2_v26 (c : Dev nD) : (W2 m ρ c (Proc.devRef .tc main_v26) : FVec F S50000x1 .f32) = KT.dcol m c :=
  (W2_of_ne m ρ c main_v26 (by decide)).trans (W1_v26 m ρ c)

theorem W2_v27 (c : Dev nD) :
    (W2 m ρ c (Proc.devRef .tc main_v27) : FVec F S1x128 .f32) = KT.brow (m ((c.tc : Thread nD τ).loc main_arg5)) :=
  (W2_of_ne m ρ c main_v27 (by decide)).trans (W1_v27 m ρ c)

theorem W2_v29 (c : Dev nD) : (W2 m ρ c (Proc.devRef .tc main_v29) : FVec F S50000x128 .f32) = XW1 m ρ c :=
  W2_arr m ρ c 2

theorem W2_arg6 (c : Dev nD) :
    (W2 m ρ c (Proc.devRef .tc main_arg6) : FVec F S128x128 .f32) = m ((c.tc : Thread nD τ).loc main_arg6) :=
  (W2_of_ne m ρ c main_arg6 (by decide)).trans
    (StableHlo.after_of_forall_not_mem (b := Proc.devRef .tc main_arg6) _ _ (by unwritten hostOps0))

/-! ## Entry of the second region -/

/-- The projected features reach the second region as the first left them: the second stretch does not write them. -/
theorem V3_v29 (c : Dev nD) : (V3 m ρ c main_v29 : FVec F S50000x128 .f32) = XW1 m ρ c := by
  show StableHlo.after hostOps1 (W2 m ρ c) (Proc.devRef .tc main_v29) = _
  exact (StableHlo.after_of_forall_not_mem (b := Proc.devRef .tc main_v29) _ _ (by unwritten hostOps1)).trans (W2_v29 m ρ c)

/-- The second stretch is the neighbour aggregation of the projected features: a gather at the normalised sources,
    the product with the edge coefficient along the feature axis, a scatter-add at the destinations into zeros. -/
theorem V3_v42 (c : Dev nD) : (V3 m ρ c main_v42 : FVec F S50000x128 .f32) = KT.agg m c (XW1 m ρ c) := by
  show StableHlo.after hostOps1 (W2 m ρ c) (Proc.devRef .tc main_v42) = _
  after_results_simp
  rw [W2_v1 m ρ c, W2_v3 m ρ c, W2_v25 m ρ c, W2_v29 m ρ c]
  rfl

theorem V3_v26 (c : Dev nD) : (V3 m ρ c main_v26 : FVec F S50000x1 .f32) = KT.dcol m c := by
  show StableHlo.after hostOps1 (W2 m ρ c) (Proc.devRef .tc main_v26) = _
  exact (StableHlo.after_of_forall_not_mem (b := Proc.devRef .tc main_v26) _ _ (by unwritten hostOps1)).trans (W2_v26 m ρ c)

theorem V3_v27 (c : Dev nD) :
    (V3 m ρ c main_v27 : FVec F S1x128 .f32) = KT.brow (m ((c.tc : Thread nD τ).loc main_arg5)) := by
  show StableHlo.after hostOps1 (W2 m ρ c) (Proc.devRef .tc main_v27) = _
  exact (StableHlo.after_of_forall_not_mem (b := Proc.devRef .tc main_v27) _ _ (by unwritten hostOps1)).trans (W2_v27 m ρ c)

theorem V3_arg6 (c : Dev nD) : (V3 m ρ c main_arg6 : FVec F S128x128 .f32) = m ((c.tc : Thread nD τ).loc main_arg6) := by
  show StableHlo.after hostOps1 (W2 m ρ c) (Proc.devRef .tc main_arg6) = _
  exact (StableHlo.after_of_forall_not_mem (b := Proc.devRef .tc main_arg6) _ _ (by unwritten hostOps1)).trans (W2_arg6 m ρ c)

end Cert.KernelIdeal.KHostA

end
-- ==== Proof.KHostB.lean ====
/-
  The contents of the TensorCore's buffers where the third region is entered, read back through the host
  operations and the first two regions to the launch memory and to the second region's output array; and the
  third region's output array where it is left.
-/
import proofs.«156280_j19628000542754_1_alg».proof.Proof.Gen.KernelIdeal.Frame
import proofs.«156280_j19628000542754_1_alg».proof.Proof.KTerms
import Idealize.ShloMosaic.Lib.StableHlo.Run

set_option maxRecDepth 16384

noncomputable section

namespace Cert.KernelIdeal.KHostB

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- The second region's output array as that region leaves it. -/
abbrev XW2 (c : Dev nD) : FVec F S50000x128 .f32 := (dat1 (V3 m ρ) c).arrAt 5 cfg1.N
/-- The third region's output array as that region leaves it. -/
abbrev OUT (c : Dev nD) : FVec F S50000x128 .f32 := (dat2 (V5 m ρ) c).arrAt 18 cfg2.N

/-- A buffer none of a literal list of host operations writes keeps its contents through them. -/
local macro "untouched_by " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## The two regions' output arrays -/

/-- Where the third region is left, its output buffer holds what its write-backs leave. -/
theorem W6_v69 (c : Dev nD) : (W6 m ρ c (Proc.devRef .tc main_v69) : FVec F S50000x128 .f32) = OUT m ρ c :=
  W6_arr m ρ c 18

/-- No host operation between the second and the third region writes the second region's output buffer. -/
theorem V5_v43 (c : Dev nD) : (V5 m ρ c main_v43 : FVec F S50000x128 .f32) = XW2 m ρ c :=
  calc (W5 m ρ c (Proc.devRef .tc main_v43) : FVec F S50000x128 .f32)
    _ = W4 m ρ c (Proc.devRef .tc main_v43) := by untouched_by hostOps2
    _ = XW2 m ρ c := W4_arr m ρ c 5

/-- The second region's output array where the last stretch of host operations begins. -/
theorem W4_v43 (c : Dev nD) : (W4 m ρ c (Proc.devRef .tc main_v43) : FVec F S50000x128 .f32) = XW2 m ρ c := W4_arr m ρ c 5

/-! ## The arguments the third region reads through a window -/

theorem V5_arg0 (c : Dev nD) : (V5 m ρ c main_arg0 : FVec F S50000x128 .f32) = m ((c.tc : Thread nD τ).loc main_arg0) :=
  (((W6_arr m ρ c 4).trans (((dat2 (V5 m ρ) c).arrAt_in 4 rfl _).trans (A_eq2 (V5 m ρ) c 4))).symm).trans (W6_main_arg0 m ρ c)

theorem V5_arg3 (c : Dev nD) : (V5 m ρ c main_arg3 : FVec F S50000x128 .f32) = m ((c.tc : Thread nD τ).loc main_arg3) :=
  (((W6_arr m ρ c 5).trans (((dat2 (V5 m ρ) c).arrAt_in 5 rfl _).trans (A_eq2 (V5 m ρ) c 5))).symm).trans (W6_main_arg3 m ρ c)

/-! ## The weight and bias arguments: as launched where the last stretch of host operations begins, and the slices
    and rows that stretch cuts from them -/

theorem W4_arg8 (c : Dev nD) : W4 m ρ c (Proc.devRef .tc main_arg8) = m ((c.tc : Thread nD τ).loc main_arg8) :=
  calc W4 m ρ c (Proc.devRef .tc main_arg8)
    _ = W5 m ρ c (Proc.devRef .tc main_arg8) := (by untouched_by hostOps2 : W5 m ρ c (Proc.devRef .tc main_arg8) = W4 m ρ c (Proc.devRef .tc main_arg8)).symm
    _ = W6 m ρ c (Proc.devRef .tc main_arg8) := (W6_of_ne m ρ c main_arg8 (by decide)).symm
    _ = m ((c.tc : Thread nD τ).loc main_arg8) := W6_main_arg8 m ρ c

theorem W4_arg9 (c : Dev nD) : W4 m ρ c (Proc.devRef .tc main_arg9) = m ((c.tc : Thread nD τ).loc main_arg9) :=
  calc W4 m ρ c (Proc.devRef .tc main_arg9)
    _ = W5 m ρ c (Proc.devRef .tc main_arg9) := (by untouched_by hostOps2 : W5 m ρ c (Proc.devRef .tc main_arg9) = W4 m ρ c (Proc.devRef .tc main_arg9)).symm
    _ = W6 m ρ c (Proc.devRef .tc main_arg9) := (W6_of_ne m ρ c main_arg9 (by decide)).symm
    _ = m ((c.tc : Thread nD τ).loc main_arg9) := W6_main_arg9 m ρ c

theorem W4_arg10 (c : Dev nD) : W4 m ρ c (Proc.devRef .tc main_arg10) = m ((c.tc : Thread nD τ).loc main_arg10) :=
  calc W4 m ρ c (Proc.devRef .tc main_arg10)
    _ = W5 m ρ c (Proc.devRef .tc main_arg10) := (by untouched_by hostOps2 : W5 m ρ c (Proc.devRef .tc main_arg10) = W4 m ρ c (Proc.devRef .tc main_arg10)).symm
    _ = W6 m ρ c (Proc.devRef .tc main_arg10) := (W6_of_ne m ρ c main_arg10 (by decide)).symm
    _ = m ((c.tc : Thread nD τ).loc main_arg10) := W6_main_arg10 m ρ c

theorem W4_arg11 (c : Dev nD) : W4 m ρ c (Proc.devRef .tc main_arg11) = m ((c.tc : Thread nD τ).loc main_arg11) :=
  calc W4 m ρ c (Proc.devRef .tc main_arg11)
    _ = W5 m ρ c (Proc.devRef .tc main_arg11) := (by untouched_by hostOps2 : W5 m ρ c (Proc.devRef .tc main_arg11) = W4 m ρ c (Proc.devRef .tc main_arg11)).symm
    _ = W6 m ρ c (Proc.devRef .tc main_arg11) := (W6_of_ne m ρ c main_arg11 (by decide)).symm
    _ = m ((c.tc : Thread nD τ).loc main_arg11) := W6_main_arg11 m ρ c

theorem W4_arg12 (c : Dev nD) : W4 m ρ c (Proc.devRef .tc main_arg12) = m ((c.tc : Thread nD τ).loc main_arg12) :=
  calc W4 m ρ c (Proc.devRef .tc main_arg12)
    _ = W5 m ρ c (Proc.devRef .tc main_arg12) := (by untouched_by hostOps2 : W5 m ρ c (Proc.devRef .tc main_arg12) = W4 m ρ c (Proc.devRef .tc main_arg12)).symm
    _ = W6 m ρ c (Proc.devRef .tc main_arg12) := (W6_of_ne m ρ c main_arg12 (by decide)).symm
    _ = m ((c.tc : Thread nD τ).loc main_arg12) := W6_main_arg12 m ρ c

theorem W4_arg13 (c : Dev nD) : W4 m ρ c (Proc.devRef .tc main_arg13) = m ((c.tc : Thread nD τ).loc main_arg13) :=
  calc W4 m ρ c (Proc.devRef .tc main_arg13)
    _ = W5 m ρ c (Proc.devRef .tc main_arg13) := (by untouched_by hostOps2 : W5 m ρ c (Proc.devRef .tc main_arg13) = W4 m ρ c (Proc.devRef .tc main_arg13)).symm
    _ = W6 m ρ c (Proc.devRef .tc main_arg13) := (W6_of_ne m ρ c main_arg13 (by decide)).symm
    _ = m ((c.tc : Thread nD τ).loc main_arg13) := W6_main_arg13 m ρ c

theorem V5_v57 (c : Dev nD) : (V5 m ρ c main_v57 : FVec F S128x128 .f32) =
    extractStridedSlice S128x128 ![0, 0] (m ((c.tc : Thread nD τ).loc main_arg8)) slices_S384x128_S128x128_0_0 := by
  rw [← W4_arg8 m ρ c]
  show StableHlo.after hostOps2 _ (Proc.devRef .tc main_v57) = _
  after_results

theorem V5_v58 (c : Dev nD) : (V5 m ρ c main_v58 : FVec F S128x128 .f32) =
    extractStridedSlice S128x128 ![128, 0] (m ((c.tc : Thread nD τ).loc main_arg8)) slices_S384x128_S128x128_128_0 := by
  rw [← W4_arg8 m ρ c]
  show StableHlo.after hostOps2 _ (Proc.devRef .tc main_v58) = _
  after_results

theorem V5_v59 (c : Dev nD) : (V5 m ρ c main_v59 : FVec F S128x128 .f32) =
    extractStridedSlice S128x128 ![256, 0] (m ((c.tc : Thread nD τ).loc main_arg8)) slices_S384x128_S128x128_256_0 := by
  rw [← W4_arg8 m ρ c]
  show StableHlo.after hostOps2 _ (Proc.devRef .tc main_v59) = _
  after_results

theorem V5_v60 (c : Dev nD) : (V5 m ρ c main_v60 : FVec F S128x128 .f32) =
    extractStridedSlice S128x128 ![0, 0] (m ((c.tc : Thread nD τ).loc main_arg10)) slices_S384x128_S128x128_0_0 := by
  rw [← W4_arg10 m ρ c]
  show StableHlo.after hostOps2 _ (Proc.devRef .tc main_v60) = _
  after_results

theorem V5_v61 (c : Dev nD) : (V5 m ρ c main_v61 : FVec F S128x128 .f32) =
    extractStridedSlice S128x128 ![128, 0] (m ((c.tc : Thread nD τ).loc main_arg10)) slices_S384x128_S128x128_128_0 := by
  rw [← W4_arg10 m ρ c]
  show StableHlo.after hostOps2 _ (Proc.devRef .tc main_v61) = _
  after_results

theorem V5_v62 (c : Dev nD) : (V5 m ρ c main_v62 : FVec F S128x128 .f32) =
    extractStridedSlice S128x128 ![256, 0] (m ((c.tc : Thread nD τ).loc main_arg10)) slices_S384x128_S128x128_256_0 := by
  rw [← W4_arg10 m ρ c]
  show StableHlo.after hostOps2 _ (Proc.devRef .tc main_v62) = _
  after_results

theorem V5_v63 (c : Dev nD) : (V5 m ρ c main_v63 : FVec F S128x128 .f32) =
    extractStridedSlice S128x128 ![0, 0] (m ((c.tc : Thread nD τ).loc main_arg12)) slices_S384x128_S128x128_0_0 := by
  rw [← W4_arg12 m ρ c]
  show StableHlo.after hostOps2 _ (Proc.devRef .tc main_v63) = _
  after_results

theorem V5_v64 (c : Dev nD) : (V5 m ρ c main_v64 : FVec F S128x128 .f32) =
    extractStridedSlice S128x128 ![128, 0] (m ((c.tc : Thread nD τ).loc main_arg12)) slices_S384x128_S128x128_128_0 := by
  rw [← W4_arg12 m ρ c]
  show StableHlo.after hostOps2 _ (Proc.devRef .tc main_v64) = _
  after_results

theorem V5_v65 (c : Dev nD) : (V5 m ρ c main_v65 : FVec F S128x128 .f32) =
    extractStridedSlice S128x128 ![256, 0] (m ((c.tc : Thread nD τ).loc main_arg12)) slices_S384x128_S128x128_256_0 := by
  rw [← W4_arg12 m ρ c]
  show StableHlo.after hostOps2 _ (Proc.devRef .tc main_v65) = _
  after_results

theorem V5_v66 (c : Dev nD) : (V5 m ρ c main_v66 : FVec F S1x128 .f32) = KT.brow (m ((c.tc : Thread nD τ).loc main_arg9)) := by
  rw [← W4_arg9 m ρ c]
  show StableHlo.after hostOps2 _ (Proc.devRef .tc main_v66) = _
  after_results
  rfl

theorem V5_v67 (c : Dev nD) : (V5 m ρ c main_v67 : FVec F S1x128 .f32) = KT.brow (m ((c.tc : Thread nD τ).loc main_arg11)) := by
  rw [← W4_arg11 m ρ c]
  show StableHlo.after hostOps2 _ (Proc.devRef .tc main_v67) = _
  after_results
  rfl

theorem V5_v68 (c : Dev nD) : (V5 m ρ c main_v68 : FVec F S1x128 .f32) = KT.brow (m ((c.tc : Thread nD τ).loc main_arg13)) := by
  rw [← W4_arg13 m ρ c]
  show StableHlo.after hostOps2 _ (Proc.devRef .tc main_v68) = _
  after_results
  rfl

/-! ## What the first stretch of host operations computes, carried to where the last stretch begins: no host
    operation in between writes these buffers, and the first two regions read them at most -/

theorem W4_v1 (c : Dev nD) : (W4 m ρ c (Proc.devRef .tc main_v1) : IVec S1600000 32) = KT.src m c :=
  calc (W4 m ρ c (Proc.devRef .tc main_v1) : IVec S1600000 32)
    _ = W3 m ρ c (Proc.devRef .tc main_v1) := W4_of_ne m ρ c main_v1 (by decide)
    _ = W2 m ρ c (Proc.devRef .tc main_v1) := by untouched_by hostOps1
    _ = W1 m ρ c (Proc.devRef .tc main_v1) := W2_of_ne m ρ c main_v1 (by decide)
    _ = KT.src m c := by
      show StableHlo.after hostOps0 _ (Proc.devRef .tc main_v1) = _
      after_results
      rfl

theorem W4_v3 (c : Dev nD) : (W4 m ρ c (Proc.devRef .tc main_v3) : IVec S1600000 32) = KT.dst m c :=
  calc (W4 m ρ c (Proc.devRef .tc main_v3) : IVec S1600000 32)
    _ = W3 m ρ c (Proc.devRef .tc main_v3) := W4_of_ne m ρ c main_v3 (by decide)
    _ = W2 m ρ c (Proc.devRef .tc main_v3) := by untouched_by hostOps1
    _ = W1 m ρ c (Proc.devRef .tc main_v3) := W2_of_ne m ρ c main_v3 (by decide)
    _ = KT.dst m c := by
      show StableHlo.after hostOps0 _ (Proc.devRef .tc main_v3) = _
      after_results
      rfl

theorem W4_v26 (c : Dev nD) : (W4 m ρ c (Proc.devRef .tc main_v26) : FVec F S50000x1 .f32) = KT.dcol m c :=
  calc (W4 m ρ c (Proc.devRef .tc main_v26) : FVec F S50000x1 .f32)
    _ = W3 m ρ c (Proc.devRef .tc main_v26) := (W4_arr m ρ c 2).trans (((dat1 (V3 m ρ) c).arrAt_in 2 rfl _).trans (A_eq1 (V3 m ρ) c 2))
    _ = W2 m ρ c (Proc.devRef .tc main_v26) := by untouched_by hostOps1
    _ = W1 m ρ c (Proc.devRef .tc main_v26) := W2_of_ne m ρ c main_v26 (by decide)
    _ = KT.dcol m c := by
      show StableHlo.after hostOps0 _ (Proc.devRef .tc main_v26) = _
      after_results
      rfl

theorem W4_v28 (c : Dev nD) : (W4 m ρ c (Proc.devRef .tc main_v28) : FVec F S1x128 .f32) = KT.brow (m ((c.tc : Thread nD τ).loc main_arg7)) :=
  calc (W4 m ρ c (Proc.devRef .tc main_v28) : FVec F S1x128 .f32)
    _ = W3 m ρ c (Proc.devRef .tc main_v28) := W4_of_ne m ρ c main_v28 (by decide)
    _ = W2 m ρ c (Proc.devRef .tc main_v28) := by untouched_by hostOps1
    _ = W1 m ρ c (Proc.devRef .tc main_v28) := W2_of_ne m ρ c main_v28 (by decide)
    _ = KT.brow (m ((c.tc : Thread nD τ).loc main_arg7)) := by
      show StableHlo.after hostOps0 _ (Proc.devRef .tc main_v28) = _
      after_results
      rfl

theorem W4_v25 (c : Dev nD) : (W4 m ρ c (Proc.devRef .tc main_v25) : FVec F S1600000 .f32) = KT.coef m c :=
  calc (W4 m ρ c (Proc.devRef .tc main_v25) : FVec F S1600000 .f32)
    _ = W3 m ρ c (Proc.devRef .tc main_v25) := W4_of_ne m ρ c main_v25 (by decide)
    _ = W2 m ρ c (Proc.devRef .tc main_v25) := by untouched_by hostOps1
    _ = W1 m ρ c (Proc.devRef .tc main_v25) := W2_of_ne m ρ c main_v25 (by decide)
    _ = KT.coef m c := by
      show StableHlo.after hostOps0 _ (Proc.devRef .tc main_v25) = _
      after_results_simp
      rfl

/-! ## Where the third region is entered -/

/-- The normalisation column: the last stretch of host operations does not write it. -/
theorem V5_v26 (c : Dev nD) : (V5 m ρ c main_v26 : FVec F S50000x1 .f32) = KT.dcol m c :=
  calc (W5 m ρ c (Proc.devRef .tc main_v26) : FVec F S50000x1 .f32)
    _ = W4 m ρ c (Proc.devRef .tc main_v26) := by untouched_by hostOps2
    _ = KT.dcol m c := W4_v26 m ρ c

/-- The second layer's bias row: the last stretch of host operations does not write it. -/
theorem V5_v28 (c : Dev nD) : (V5 m ρ c main_v28 : FVec F S1x128 .f32) = KT.brow (m ((c.tc : Thread nD τ).loc main_arg7)) :=
  calc (W5 m ρ c (Proc.devRef .tc main_v28) : FVec F S1x128 .f32)
    _ = W4 m ρ c (Proc.devRef .tc main_v28) := by untouched_by hostOps2
    _ = KT.brow (m ((c.tc : Thread nD τ).loc main_arg7)) := W4_v28 m ρ c

/-- The neighbour aggregation of the second region's output: the last stretch's scatter of the gathered and scaled rows. -/
theorem V5_v56 (c : Dev nD) : (V5 m ρ c main_v56 : FVec F S50000x128 .f32) = KT.agg m c (XW2 m ρ c) := by
  have e1 := W4_v1 m ρ c
  have e3 := W4_v3 m ρ c
  have e25 := W4_v25 m ρ c
  have e43 := W4_v43 m ρ c
  show StableHlo.after hostOps2 _ (Proc.devRef .tc main_v56) = _
  after_results_simp
  rw [e1, e3, e25, e43]
  rfl

end Cert.KernelIdeal.KHostB

end
-- ==== Proof.KLayout.lean ====
/-
  The kernel's reshaped and sliced operands read at coordinates: a bias vector laid as a one-row array, the
  normalisation laid as a one-column array, and the three 128-row runs of a 384-row weight.
-/
import proofs.«156280_j19628000542754_1_alg».proof.Proof.KTerms
import Idealize.ShloMosaic.Lib.Pipeline.Value
import Idealize.ShloMosaic.Lib.ValueIdx

noncomputable section

namespace Cert.KernelIdeal.KLayout

open Idealize.ShloMosaic Idealize.SL.Sem Cert.KernelIdeal Cert.KernelIdeal.Gen

variable {F : FTy → Type} [FloatOps F]

/-- A bias vector laid as a one-row array reads, at column `k` of its row, the vector at `k`. -/
theorem brow_apply (b : FVec F S128 .f32) (k : Fin 128) : KT.brow b (ValueIdx.ix2 0 k) = b (ValueIdx.ix1 k) := by
  unfold KT.brow
  exact shapeCast_apply b shapeCasts_S128_S1x128 (ValueIdx.ix2 0 k) (ValueIdx.ix1 k)
    (by rw [Shape.rowMajor_val_one, Shape.rowMajor_val_two]; show k.val = 0 * 128 + k.val; omega)

/-- The normalisation laid as a one-column array reads, at row `r` of its column, the normalisation of node `r`. -/
theorem dcol_apply (m : (ℓ : Loc nD τ sig) → Buf (Elt F) ℓ) (c : Dev nD) (r : Fin 50000) :
    KT.dcol m c (ValueIdx.ix2 r 0) = KT.dinv m c (ValueIdx.ix1 r) := by
  unfold KT.dcol
  generalize KT.dinv m c = y
  exact shapeCast_apply y shapeCasts_S50000_S50000x1 (ValueIdx.ix2 r 0) (ValueIdx.ix1 r)
    (by rw [Shape.rowMajor_val_one, Shape.rowMajor_val_two]; show r.val = r.val * 1 + 0; omega)

/-- The first 128 rows of a 384-row weight. -/
theorem slice0_apply (w : FVec F S384x128 .f32) (k q : Fin 128) :
    extractStridedSlice S128x128 ![0, 0] w slices_S384x128_S128x128_0_0 (ValueIdx.ix2 k q)
      = w (ValueIdx.ix2 (⟨k.val, by omega⟩ : Fin 384) q) :=
  extractStridedSlice_apply ![0, 0] w slices_S384x128_S128x128_0_0 (ValueIdx.ix2 k q) (ValueIdx.ix2 (⟨k.val, by omega⟩ : Fin 384) q)
    (fun a => match a with
      | ⟨0, _⟩ => by show k.val = 0 + k.val; omega
      | ⟨1, _⟩ => by show q.val = 0 + q.val; omega)

/-- Its middle 128 rows. -/
theorem slice128_apply (w : FVec F S384x128 .f32) (k q : Fin 128) :
    extractStridedSlice S128x128 ![128, 0] w slices_S384x128_S128x128_128_0 (ValueIdx.ix2 k q)
      = w (ValueIdx.ix2 (⟨128 + k.val, by omega⟩ : Fin 384) q) :=
  extractStridedSlice_apply ![128, 0] w slices_S384x128_S128x128_128_0 (ValueIdx.ix2 k q) (ValueIdx.ix2 (⟨128 + k.val, by omega⟩ : Fin 384) q)
    (fun a => match a with
      | ⟨0, _⟩ => by show 128 + k.val = 128 + k.val; omega
      | ⟨1, _⟩ => by show q.val = 0 + q.val; omega)

/-- Its last 128 rows. -/
theorem slice256_apply (w : FVec F S384x128 .f32) (k q : Fin 128) :
    extractStridedSlice S128x128 ![256, 0] w slices_S384x128_S128x128_256_0 (ValueIdx.ix2 k q)
      = w (ValueIdx.ix2 (⟨256 + k.val, by omega⟩ : Fin 384) q) :=
  extractStridedSlice_apply ![256, 0] w slices_S384x128_S128x128_256_0 (ValueIdx.ix2 k q) (ValueIdx.ix2 (⟨256 + k.val, by omega⟩ : Fin 384) q)
    (fun a => match a with
      | ⟨0, _⟩ => by show 256 + k.val = 256 + k.val; omega
      | ⟨1, _⟩ => by show q.val = 0 + q.val; omega)

end Cert.KernelIdeal.KLayout

end
-- ==== Proof.PreDeg.lean ====
/-
  The destination indices are non-negative words, by the last conjunct of the precondition; so the Python-style
  normalisation of a destination index (add the extent to a negative entry) leaves it as it is.  And the weighted
  in-degree with its self loop, `1 + (0 + Σ w)`, is the scatter of the weights onto the all-ones vector, `1 + Σ w`.
-/
import proofs.«156280_j19628000542754_1_alg».proof.Defs
import proofs.«156280_j19628000542754_1_alg».proof.Proof.Gen.Pre_finite_inputs
import proofs.«156280_j19628000542754_1_alg».proof.Proof.KTerms
import Idealize.ShloMosaic.Lib.ReduceAll
import Idealize.ShloMosaic.Lib.StableHlo.Predicate
import Idealize.ShloMosaic.Lib.ValueIdx
import Idealize.ShloMosaic.PureOps.Ideal.Laws

noncomputable section

namespace Cert.PreDeg

open Idealize.ShloMosaic Idealize.SL.Sem

/-- The rank-0 shape has one index. -/
instance : Subsingleton Cert.Pre_finite_inputs.S_.Idx := ⟨fun a b => funext fun d => d.elim0⟩

/-- A signed word that is at least 0 is not below 0. -/
theorem slt_ne_one_of_sge {x : BitVec 32} (h : IntOp.cmpi .sge x 0#32 = 1#1) : ¬ IntOp.cmpi .slt x 0#32 = 1#1 := by
  intro h'
  have h1 := IntOp.cmpi_sge.1 h
  have h2 := IntOp.cmpi_slt.1 h'
  exact absurd h1 (not_le.2 h2)

/-- An index array all of whose entries are non-negative is its own normalisation: at each entry the comparison
    "below 0" fails, so the select takes its third operand, the entry itself. -/
theorem norm_eq_of_sge (i : IVec Cert.KernelIdeal.S1600000 32)
    (h : cmpi .sge i (broadcastInDim Cert.KernelIdeal.S1600000 ![] Cert.KernelIdeal.Gen.bcast_S_S1600000 (constantI Cert.KernelIdeal.S_ 32 0#32)) = fun _ => 1#1) :
    Cert.KernelIdeal.KT.norm i = i := by
  funext e
  have he := congrFun h e
  simp only [cmpi, broadcastInDim, constantI] at he
  simp only [Cert.KernelIdeal.KT.norm, select, cmpi, broadcastInDim, constantI]
  exact if_neg (slt_ne_one_of_sge he)

/-- The last conjunct of the precondition: every destination index is a non-negative word.  The precondition is a
    conjunction `p ∧ all (dst ≥ 0)` of one-bit words that is 1; its second half is a reduction by `and` over all
    edges that is 1, so every edge's bit is 1. -/
theorem dst_sge (m : (ℓ : Loc Cert.KernelIdeal.nD Cert.KernelIdeal.τ Cert.KernelIdeal.sig) → Buf (Elt Ideal) ℓ) (hpre : Cert.Pre_KernelIdeal m) (c : Dev Cert.KernelIdeal.nD) :
    cmpi .sge (Cert.KernelIdeal.KT.dst m c) (broadcastInDim Cert.KernelIdeal.S1600000 ![] Cert.KernelIdeal.Gen.bcast_S_S1600000 (constantI Cert.KernelIdeal.S_ 32 0#32)) = fun _ => 1#1 := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  have h2 := (IntOp.andi_eq_one.1 h).2
  funext e
  exact Host.reduce_andi_all _ _ _ _ _ h2 e

/-- Under the precondition the destination indices are their own normalisation. -/
theorem norm_dst (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.KT.norm (Cert.KernelIdeal.KT.dst m c) = Cert.KernelIdeal.KT.dst m c :=
  norm_eq_of_sge _ (dst_sge m hpre c)

/-- Scattering onto a zero array and then adding `a` is scattering onto `a`: `a i + (0 + Σ) = a i + Σ`. -/
theorem addf_scatterAdd_zero {s si su : Shape} {φ : FTy} {w : Nat} (d : ScatterDims s si su) (a z : FVec Ideal s φ)
    (idx : IVec si w) (upd : FVec Ideal su φ) (hz : ∀ i, z i = 0) :
    addf a (Host.scatterAdd d z idx upd) = Host.scatterAdd d a idx upd := by
  funext i
  show a i + (z i + _) = a i + _
  rw [hz i, zero_add]

/-- The broadcast zero word is the real 0 at every node. -/
theorem zero_apply (i : Cert.KernelIdeal.S50000.Idx) :
    broadcastInDim Cert.KernelIdeal.S50000 ![] Cert.KernelIdeal.Gen.bcast_S_S50000 (constant (F := Ideal) Cert.KernelIdeal.S_ .f32 0x00000000#32) i = 0 := by
  simp only [broadcastInDim, constant, Ideal.ofBits_def, Ideal.ofBits_zero_f32]

/-- The weighted in-degree with its self loop, `1 + (0 + Σ_{dst e = i} w e)`, is the weights scattered onto the
    all-ones vector, `1 + Σ_{dst e = i} w e`.  No finiteness is used. -/
theorem deg_eq (m : (ℓ : Loc Cert.KernelIdeal.nD Cert.KernelIdeal.τ Cert.KernelIdeal.sig) → Buf (Elt Ideal) ℓ) (c : Dev Cert.KernelIdeal.nD) :
    Cert.KernelIdeal.KT.deg (F := Ideal) m c
      = Host.scatterAdd Cert.KernelIdeal.scatter_S50000_S1600000x1_S1600000_n_0_0_1
          (broadcastInDim Cert.KernelIdeal.S50000 ![] Cert.KernelIdeal.Gen.bcast_S_S50000 (constant Cert.KernelIdeal.S_ .f32 0x3F800000#32))
          (Cert.KernelIdeal.KT.col (Cert.KernelIdeal.KT.dst m c)) (Cert.KernelIdeal.KT.wgt m c) := by
  unfold Cert.KernelIdeal.KT.deg
  exact addf_scatterAdd_zero _ _ _ _ _ zero_apply

end Cert.PreDeg

end
-- ==== Proof.RefStages.lean ====
/-
  The reference program read at one node row.

  The reference computes, for every node `r`, two graph-convolution layers and a gated recurrent update. Its
  stages are read here at the coordinates `(r, q)` of a 50000 x 128 array against the shared arithmetic:
  the first projection is a row-by-column product (`dotAt`); a layer's pre-activation is the neighbours' sum plus
  the self loop `d * d * xw` plus the bias (`convAt`), with `d` the node's normalisation; the first layer ends in
  a maximum with zero, the second in a logistic spelt `1 / (1 + exp (-x))`; a gate's linear part is a product of
  the 384-wide row `[x | g | h]` with a 384 x 128 weight, which splits into the three 128-wide products (`lin3`);
  the result is `u * h + (1 - u) * tanh (...)` (`gruAt`). The neighbours' sums (scatters of gathered rows) stay
  whole arrays: nothing here looks inside them.
-/
import proofs.«156280_j19628000542754_1_alg».proof.Proof.Gen.ReferenceIdeal.Read
import proofs.«156280_j19628000542754_1_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.TcCoe Idealize.SL.Sem Idealize.ShloMosaic.StableHlo

/-! ## The word of `1.0` and the logistic spelt out -/

/-- The single-precision word `0x3F800000` is the extended real `1`. -/
theorem one_word : Ideal.ofBits .f32 0x3F800000#32 = 1 := by
  simp [Ideal.ofBits, Ideal.ieee, -EReal.coe_mul]; norm_num

/-- `1 / (1 + exp (-x))` with both ones written as that word is the logistic function. -/
theorem logistic_spelt (x : EReal) :
    Ideal.div (Ideal.ofBits .f32 0x3F800000#32) (Ideal.ofBits .f32 0x3F800000#32 + Ideal.exp (-x)) = Ideal.logistic x := by
  rw [one_word]; rfl

/-! ## A row of three 50000 x 128 arrays laid side by side -/

section Concat
variable {α : Type}

/-- Columns `0 .. 127` of the joined array are the first array's. -/
theorem cat3_fst (h : Shape.Concatenates [S50000x128, S50000x128, S50000x128] S50000x384 1)
    (a b c : S50000x128.Idx → α) (r : Fin 50000) (k : Fin 128) :
    concatenate S50000x384 1 [⟨S50000x128, a⟩, ⟨S50000x128, b⟩, ⟨S50000x128, c⟩] h
        (ValueIdx.ix2 r (⟨k.val, by omega⟩ : Fin 384)) = a (ValueIdx.ix2 r k) := by
  refine concatenate_apply_piece (1 : Fin S50000x384.rank) [⟨S50000x128, a⟩, ⟨S50000x128, b⟩, ⟨S50000x128, c⟩] h _ 0
    (by show (0 : Nat) < 3; omega) S50000x128 a rfl rfl 0 rfl (ValueIdx.ix2 r k) ?_ ?_
  · intro d hd
    match d with
    | ⟨0, _⟩ => rfl
    | ⟨1, _⟩ => exact absurd rfl hd
  · show 0 + k.val = k.val
    omega

/-- Columns `128 .. 255` are the second array's. -/
theorem cat3_snd (h : Shape.Concatenates [S50000x128, S50000x128, S50000x128] S50000x384 1)
    (a b c : S50000x128.Idx → α) (r : Fin 50000) (k : Fin 128) :
    concatenate S50000x384 1 [⟨S50000x128, a⟩, ⟨S50000x128, b⟩, ⟨S50000x128, c⟩] h
        (ValueIdx.ix2 r (⟨128 + k.val, by omega⟩ : Fin 384)) = b (ValueIdx.ix2 r k) := by
  refine concatenate_apply_piece (1 : Fin S50000x384.rank) [⟨S50000x128, a⟩, ⟨S50000x128, b⟩, ⟨S50000x128, c⟩] h _ 1
    (by show (1 : Nat) < 3; omega) S50000x128 b rfl rfl 128 rfl (ValueIdx.ix2 r k) ?_ ?_
  · intro d hd
    match d with
    | ⟨0, _⟩ => rfl
    | ⟨1, _⟩ => exact absurd rfl hd
  · show 128 + k.val = 128 + k.val
    omega

/-- Columns `256 .. 383` are the third array's. -/
theorem cat3_trd (h : Shape.Concatenates [S50000x128, S50000x128, S50000x128] S50000x384 1)
    (a b c : S50000x128.Idx → α) (r : Fin 50000) (k : Fin 128) :
    concatenate S50000x384 1 [⟨S50000x128, a⟩, ⟨S50000x128, b⟩, ⟨S50000x128, c⟩] h
        (ValueIdx.ix2 r (⟨256 + k.val, by omega⟩ : Fin 384)) = c (ValueIdx.ix2 r k) := by
  refine concatenate_apply_piece (1 : Fin S50000x384.rank) [⟨S50000x128, a⟩, ⟨S50000x128, b⟩, ⟨S50000x128, c⟩] h _ 2
    (by show (2 : Nat) < 3; omega) S50000x128 c rfl rfl 256 rfl (ValueIdx.ix2 r k) ?_ ?_
  · intro d hd
    match d with
    | ⟨0, _⟩ => rfl
    | ⟨1, _⟩ => exact absurd rfl hd
  · show 256 + k.val = 256 + k.val
    omega

end Concat

/-- A row of the joined array against a 384 x 128 weight is the sum of the three 128-wide products, left to right:
    the sum over 384 columns is cut into its three runs of 128 and each run read through the join. -/
theorem cat3_dot (h : Shape.Concatenates [S50000x128, S50000x128, S50000x128] S50000x384 1)
    (a b c : S50000x128.Idx → EReal) (w : S384x128.Idx → EReal) (r : Fin 50000) (q : Fin 128) :
    ∑ k : Fin 384, concatenate S50000x384 1 [⟨S50000x128, a⟩, ⟨S50000x128, b⟩, ⟨S50000x128, c⟩] h (ValueIdx.ix2 r k) * w (ValueIdx.ix2 k q)
      = Cert.Spec.dotAt (fun k => a (ValueIdx.ix2 r k)) (fun k q' => w (ValueIdx.ix2 (⟨k.val, by omega⟩ : Fin 384) q')) q
        + Cert.Spec.dotAt (fun k => b (ValueIdx.ix2 r k)) (fun k q' => w (ValueIdx.ix2 (⟨128 + k.val, by omega⟩ : Fin 384) q')) q
        + Cert.Spec.dotAt (fun k => c (ValueIdx.ix2 r k)) (fun k q' => w (ValueIdx.ix2 (⟨256 + k.val, by omega⟩ : Fin 384) q')) q := by
  rw [Cert.Spec.sum384]
  simp only [cat3_fst, cat3_snd, cat3_trd]
  rfl

/-- With a bias row added, that is a gate's linear part. -/
theorem cat3_lin (h : Shape.Concatenates [S50000x128, S50000x128, S50000x128] S50000x384 1)
    (a b c : S50000x128.Idx → EReal) (w : S384x128.Idx → EReal) (bias : S128.Idx → EReal) (r : Fin 50000) (q : Fin 128) :
    (∑ k : Fin 384, concatenate S50000x384 1 [⟨S50000x128, a⟩, ⟨S50000x128, b⟩, ⟨S50000x128, c⟩] h (ValueIdx.ix2 r k) * w (ValueIdx.ix2 k q))
        + bias (ValueIdx.ix1 q)
      = Cert.Spec.lin3 (fun k => a (ValueIdx.ix2 r k)) (fun k => b (ValueIdx.ix2 r k)) (fun k => c (ValueIdx.ix2 r k))
          (fun k q' => w (ValueIdx.ix2 (⟨k.val, by omega⟩ : Fin 384) q')) (fun k q' => w (ValueIdx.ix2 (⟨128 + k.val, by omega⟩ : Fin 384) q')) (fun k q' => w (ValueIdx.ix2 (⟨256 + k.val, by omega⟩ : Fin 384) q')) (fun k => bias (ValueIdx.ix1 k)) q := by
  rw [cat3_dot]; rfl

variable (x0 : (⟨S50000x128, .f32⟩ : BufTy).Contents (Elt Ideal))
  (x1 : (⟨S2x1600000, .i32⟩ : BufTy).Contents (Elt Ideal))
  (x2 : (⟨S1600000, .f32⟩ : BufTy).Contents (Elt Ideal))
  (x3 : (⟨S50000x128, .f32⟩ : BufTy).Contents (Elt Ideal))
  (x4 : (⟨S128x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S384x128, .f32⟩ : BufTy).Contents (Elt Ideal))
  (x9 : (⟨S128, .f32⟩ : BufTy).Contents (Elt Ideal))
  (x10 : (⟨S384x128, .f32⟩ : BufTy).Contents (Elt Ideal))
  (x11 : (⟨S128, .f32⟩ : BufTy).Contents (Elt Ideal))
  (x12 : (⟨S384x128, .f32⟩ : BufTy).Contents (Elt Ideal))
  (x13 : (⟨S128, .f32⟩ : BufTy).Contents (Elt Ideal))

/-! ## The first projection and the first layer -/

/-- The first projection at `(r, q)`: row `r` of `x` against column `q` of the first weight. -/
theorem v4_apply (r : Fin 50000) (q : Fin 128) :
    val_main_v4 (F := Ideal) x0 x4 (ValueIdx.ix2 r q)
      = Cert.Spec.dotAt (fun k => x0 (ValueIdx.ix2 r k)) (fun k q' => x4 (ValueIdx.ix2 k q')) q := by
  rw [val_main_v4_apply]
  unfold Cert.Spec.dotAt
  refine Finset.sum_congr rfl fun k _ => ?_
  have el : lidx_main_v4 (ValueIdx.ix2 r q) k = ValueIdx.ix2 r k := funext fun a => Fin.ext (by match a with | ⟨0, _⟩ => rfl | ⟨1, _⟩ => rfl)
  have er : ridx_main_v4 (ValueIdx.ix2 r q) k = ValueIdx.ix2 k q := funext fun a => Fin.ext (by match a with | ⟨0, _⟩ => rfl | ⟨1, _⟩ => rfl)
  rw [el, er]

/-- The first layer before its activation, at `(r, k)`: the neighbours' sum, the self loop with the node's squared
    normalisation (broadcast along the row), and the bias (broadcast down the rows). -/
theorem v50_apply (r : Fin 50000) (k : Fin 128) :
    val_main_v50 (F := Ideal) x0 x1 x2 x4 x5 (ValueIdx.ix2 r k) = Cert.Spec.convAt (fun k' => val_main_v42 (F := Ideal) x0 x1 x2 x4 (ValueIdx.ix2 r k')) (fun k' => val_main_v4 (F := Ideal) x0 x4 (ValueIdx.ix2 r k')) (val_main_v13 (F := Ideal) x1 x2 (ValueIdx.ix1 r)) (fun k' => x5 (ValueIdx.ix1 k')) k := by
  have e1 : idx_main_v44 (idx_main_v45 (ValueIdx.ix2 r k)) = ValueIdx.ix1 r := funext fun a => Fin.ext (by match a with | ⟨0, _⟩ => rfl)
  have e2 : idx_main_v48 (idx_main_v49 (ValueIdx.ix2 r k)) = ValueIdx.ix1 k := funext fun a => Fin.ext (by match a with | ⟨0, _⟩ => rfl)
  rw [val_main_v50_apply, val_main_v47_apply, val_main_v46_apply, val_main_v45_apply, val_main_v44_apply,
    val_main_v43_apply, val_main_v49_apply, val_main_v48_apply, e1, e2]
  rfl

/-- The first layer's output at `(r, k)`: the maximum of that with the zero word. -/
theorem v51_apply (r : Fin 50000) (k : Fin 128) :
    val_main_v51 (F := Ideal) x0 x1 x2 x4 x5 (ValueIdx.ix2 r k) = max (Cert.Spec.convAt (fun k' => val_main_v42 (F := Ideal) x0 x1 x2 x4 (ValueIdx.ix2 r k')) (fun k' => val_main_v4 (F := Ideal) x0 x4 (ValueIdx.ix2 r k')) (val_main_v13 (F := Ideal) x1 x2 (ValueIdx.ix1 r)) (fun k' => x5 (ValueIdx.ix1 k')) k) (Ideal.ofBits .f32 0x00000000#32) := by
  rw [val_main_v51_apply, val_main_call0_v0_apply, val_main_call0_cst_apply, v50_apply]
  rfl

/-- The second projection at `(r, q)`: the first layer's output row against column `q` of the second weight. -/
theorem v52_apply (r : Fin 50000) (q : Fin 128) :
    val_main_v52 (F := Ideal) x0 x1 x2 x4 x5 x6 (ValueIdx.ix2 r q)
      = Cert.Spec.dotAt
          (fun k => max (Cert.Spec.convAt (fun k' => val_main_v42 (F := Ideal) x0 x1 x2 x4 (ValueIdx.ix2 r k')) (fun k' => val_main_v4 (F := Ideal) x0 x4 (ValueIdx.ix2 r k')) (val_main_v13 (F := Ideal) x1 x2 (ValueIdx.ix1 r)) (fun k' => x5 (ValueIdx.ix1 k')) k) (Ideal.ofBits .f32 0x00000000#32))
          (fun k q' => x6 (ValueIdx.ix2 k q')) q := by
  rw [val_main_v52_apply]
  unfold Cert.Spec.dotAt
  refine Finset.sum_congr rfl fun k _ => ?_
  have el : lidx_main_v52 (ValueIdx.ix2 r q) k = ValueIdx.ix2 r k := funext fun a => Fin.ext (by match a with | ⟨0, _⟩ => rfl | ⟨1, _⟩ => rfl)
  have er : ridx_main_v52 (ValueIdx.ix2 r q) k = ValueIdx.ix2 k q := funext fun a => Fin.ext (by match a with | ⟨0, _⟩ => rfl | ⟨1, _⟩ => rfl)
  rw [el, er, v51_apply]

/-! ## The second layer recomputes the first layer's normalisation and edge coefficients -/

/-- The node normalisation of the second layer is the first layer's: the same operations on the same arguments. -/
theorem v61_eq : val_main_v61 (F := Ideal) x1 x2 = val_main_v13 (F := Ideal) x1 x2 := rfl

/-- So is the edge coefficient `d(src) * w * d(dst)`. -/
theorem v77_eq : val_main_v77 (F := Ideal) x1 x2 = val_main_v29 (F := Ideal) x1 x2 := rfl

/-! ## The second layer and its logistic -/

/-- The second layer before its activation, at `(r, k)`. -/
theorem v98_apply (r : Fin 50000) (k : Fin 128) :
    val_main_v98 (F := Ideal) x0 x1 x2 x4 x5 x6 x7 (ValueIdx.ix2 r k) = Cert.Spec.convAt (fun k' => val_main_v90 (F := Ideal) x0 x1 x2 x4 x5 x6 (ValueIdx.ix2 r k')) (fun k' => val_main_v52 (F := Ideal) x0 x1 x2 x4 x5 x6 (ValueIdx.ix2 r k')) (val_main_v61 (F := Ideal) x1 x2 (ValueIdx.ix1 r)) (fun k' => x7 (ValueIdx.ix1 k')) k := by
  have e1 : idx_main_v92 (idx_main_v93 (ValueIdx.ix2 r k)) = ValueIdx.ix1 r := funext fun a => Fin.ext (by match a with | ⟨0, _⟩ => rfl)
  have e2 : idx_main_v96 (idx_main_v97 (ValueIdx.ix2 r k)) = ValueIdx.ix1 k := funext fun a => Fin.ext (by match a with | ⟨0, _⟩ => rfl)
  rw [val_main_v98_apply, val_main_v95_apply, val_main_v94_apply, val_main_v93_apply, val_main_v92_apply,
    val_main_v91_apply, val_main_v97_apply, val_main_v96_apply, e1, e2]
  rfl

/-- The second layer's output is the logistic of that, spelt `1 / (1 + exp (-x))` on the host. -/
theorem v104_logistic (i : S50000x128.Idx) :
    val_main_v104 (F := Ideal) x0 x1 x2 x4 x5 x6 x7 i = Ideal.logistic (val_main_v98 (F := Ideal) x0 x1 x2 x4 x5 x6 x7 i) := by
  rw [val_main_v104_apply, val_main_v103_apply, val_main_cst_19_apply, val_main_v102_apply, val_main_v101_apply,
    val_main_cst_18_apply, val_main_v100_apply, val_main_v99_apply]
  generalize val_main_v98 (F := Ideal) x0 x1 x2 x4 x5 x6 x7 i = y
  exact logistic_spelt y

/-- The row `g` of the second layer's output at node `r`. -/
theorem g_row (r : Fin 50000) :
    (fun k => val_main_v104 (F := Ideal) x0 x1 x2 x4 x5 x6 x7 (ValueIdx.ix2 r k)) = (fun k => Ideal.logistic (Cert.Spec.convAt (fun k' => val_main_v90 (F := Ideal) x0 x1 x2 x4 x5 x6 (ValueIdx.ix2 r k')) (fun k' => val_main_v52 (F := Ideal) x0 x1 x2 x4 x5 x6 (ValueIdx.ix2 r k')) (val_main_v61 (F := Ideal) x1 x2 (ValueIdx.ix1 r)) (fun k' => x7 (ValueIdx.ix1 k')) k)) := by
  funext k
  rw [v104_logistic, v98_apply]

/-! ## The gates: a 384-wide row `[x | g | h]` against a 384 x 128 weight, plus a bias -/

/-- The update gate's linear part at `(r, q)`. -/
theorem v109_lin (r : Fin 50000) (q : Fin 128) :
    val_main_v109 (F := Ideal) x0 x1 x2 x3 x4 x5 x6 x7 x8 x9 (ValueIdx.ix2 r q)
      = Cert.Spec.lin3 (fun k => x0 (ValueIdx.ix2 r k)) (fun k => val_main_v104 (F := Ideal) x0 x1 x2 x4 x5 x6 x7 (ValueIdx.ix2 r k)) (fun k => x3 (ValueIdx.ix2 r k))
          (fun k q' => x8 (ValueIdx.ix2 (⟨k.val, by omega⟩ : Fin 384) q')) (fun k q' => x8 (ValueIdx.ix2 (⟨128 + k.val, by omega⟩ : Fin 384) q')) (fun k q' => x8 (ValueIdx.ix2 (⟨256 + k.val, by omega⟩ : Fin 384) q')) (fun k => x9 (ValueIdx.ix1 k)) q := by
  have hdot : val_main_v106 (F := Ideal) x0 x1 x2 x3 x4 x5 x6 x7 x8 (ValueIdx.ix2 r q)
      = ∑ k : Fin 384, val_main_v105 (F := Ideal) x0 x1 x2 x3 x4 x5 x6 x7 (ValueIdx.ix2 r k) * x8 (ValueIdx.ix2 k q) := by
    rw [val_main_v106_apply]
    refine Finset.sum_congr rfl fun k _ => ?_
    have el : lidx_main_v106 (ValueIdx.ix2 r q) k = ValueIdx.ix2 r k := funext fun a => Fin.ext (by match a with | ⟨0, _⟩ => rfl | ⟨1, _⟩ => rfl)
    have er : ridx_main_v106 (ValueIdx.ix2 r q) k = ValueIdx.ix2 k q := funext fun a => Fin.ext (by match a with | ⟨0, _⟩ => rfl | ⟨1, _⟩ => rfl)
    rw [el, er]
  have eb : idx_main_v107 (idx_main_v108 (ValueIdx.ix2 r q)) = ValueIdx.ix1 q := funext fun a => Fin.ext (by match a with | ⟨0, _⟩ => rfl)
  rw [val_main_v109_apply, hdot, val_main_v108_apply, val_main_v107_apply, eb]
  unfold val_main_v105
  exact cat3_lin _ _ _ _ _ _ r q

/-- The reset gate's linear part at `(r, q)`. -/
theorem v119_lin (r : Fin 50000) (q : Fin 128) :
    val_main_v119 (F := Ideal) x0 x1 x2 x3 x4 x5 x6 x7 x10 x11 (ValueIdx.ix2 r q)
      = Cert.Spec.lin3 (fun k => x0 (ValueIdx.ix2 r k)) (fun k => val_main_v104 (F := Ideal) x0 x1 x2 x4 x5 x6 x7 (ValueIdx.ix2 r k)) (fun k => x3 (ValueIdx.ix2 r k))
          (fun k q' => x10 (ValueIdx.ix2 (⟨k.val, by omega⟩ : Fin 384) q')) (fun k q' => x10 (ValueIdx.ix2 (⟨128 + k.val, by omega⟩ : Fin 384) q')) (fun k q' => x10 (ValueIdx.ix2 (⟨256 + k.val, by omega⟩ : Fin 384) q')) (fun k => x11 (ValueIdx.ix1 k)) q := by
  have hdot : val_main_v116 (F := Ideal) x0 x1 x2 x3 x4 x5 x6 x7 x10 (ValueIdx.ix2 r q)
      = ∑ k : Fin 384, val_main_v105 (F := Ideal) x0 x1 x2 x3 x4 x5 x6 x7 (ValueIdx.ix2 r k) * x10 (ValueIdx.ix2 k q) := by
    rw [val_main_v116_apply]
    refine Finset.sum_congr rfl fun k _ => ?_
    have el : lidx_main_v116 (ValueIdx.ix2 r q) k = ValueIdx.ix2 r k := funext fun a => Fin.ext (by match a with | ⟨0, _⟩ => rfl | ⟨1, _⟩ => rfl)
    have er : ridx_main_v116 (ValueIdx.ix2 r q) k = ValueIdx.ix2 k q := funext fun a => Fin.ext (by match a with | ⟨0, _⟩ => rfl | ⟨1, _⟩ => rfl)
    rw [el, er]
  have eb : idx_main_v117 (idx_main_v118 (ValueIdx.ix2 r q)) = ValueIdx.ix1 q := funext fun a => Fin.ext (by match a with | ⟨0, _⟩ => rfl)
  rw [val_main_v119_apply, hdot, val_main_v118_apply, val_main_v117_apply, eb]
  unfold val_main_v105
  exact cat3_lin _ _ _ _ _ _ r q

/-- The candidate's linear part at `(r, q)`: its third piece is the reset hidden row `rr * h`. -/
theorem v131_lin (r : Fin 50000) (q : Fin 128) :
    val_main_v131 (F := Ideal) x0 x1 x2 x3 x4 x5 x6 x7 x10 x11 x12 x13 (ValueIdx.ix2 r q)
      = Cert.Spec.lin3 (fun k => x0 (ValueIdx.ix2 r k)) (fun k => val_main_v104 (F := Ideal) x0 x1 x2 x4 x5 x6 x7 (ValueIdx.ix2 r k)) (fun k => val_main_v126 (F := Ideal) x0 x1 x2 x3 x4 x5 x6 x7 x10 x11 (ValueIdx.ix2 r k))
          (fun k q' => x12 (ValueIdx.ix2 (⟨k.val, by omega⟩ : Fin 384) q')) (fun k q' => x12 (ValueIdx.ix2 (⟨128 + k.val, by omega⟩ : Fin 384) q')) (fun k q' => x12 (ValueIdx.ix2 (⟨256 + k.val, by omega⟩ : Fin 384) q')) (fun k => x13 (ValueIdx.ix1 k)) q := by
  have hdot : val_main_v128 (F := Ideal) x0 x1 x2 x3 x4 x5 x6 x7 x10 x11 x12 (ValueIdx.ix2 r q)
      = ∑ k : Fin 384, val_main_v127 (F := Ideal) x0 x1 x2 x3 x4 x5 x6 x7 x10 x11 (ValueIdx.ix2 r k) * x12 (ValueIdx.ix2 k q) := by
    rw [val_main_v128_apply]
    refine Finset.sum_congr rfl fun k _ => ?_
    have el : lidx_main_v128 (ValueIdx.ix2 r q) k = ValueIdx.ix2 r k := funext fun a => Fin.ext (by match a with | ⟨0, _⟩ => rfl | ⟨1, _⟩ => rfl)
    have er : ridx_main_v128 (ValueIdx.ix2 r q) k = ValueIdx.ix2 k q := funext fun a => Fin.ext (by match a with | ⟨0, _⟩ => rfl | ⟨1, _⟩ => rfl)
    rw [el, er]
  have eb : idx_main_v129 (idx_main_v130 (ValueIdx.ix2 r q)) = ValueIdx.ix1 q := funext fun a => Fin.ext (by match a with | ⟨0, _⟩ => rfl)
  rw [val_main_v131_apply, hdot, val_main_v130_apply, val_main_v129_apply, eb]
  unfold val_main_v127
  exact cat3_lin _ _ _ _ _ _ r q

/-- The update gate is the logistic of its linear part. -/
theorem v115_logistic (i : S50000x128.Idx) :
    val_main_v115 (F := Ideal) x0 x1 x2 x3 x4 x5 x6 x7 x8 x9 i = Ideal.logistic (val_main_v109 (F := Ideal) x0 x1 x2 x3 x4 x5 x6 x7 x8 x9 i) := by
  rw [val_main_v115_apply, val_main_v114_apply, val_main_cst_21_apply, val_main_v113_apply, val_main_v112_apply,
    val_main_cst_20_apply, val_main_v111_apply, val_main_v110_apply]
  generalize val_main_v109 (F := Ideal) x0 x1 x2 x3 x4 x5 x6 x7 x8 x9 i = y
  exact logistic_spelt y

/-- The reset gate is the logistic of its linear part. -/
theorem v125_logistic (i : S50000x128.Idx) :
    val_main_v125 (F := Ideal) x0 x1 x2 x3 x4 x5 x6 x7 x10 x11 i = Ideal.logistic (val_main_v119 (F := Ideal) x0 x1 x2 x3 x4 x5 x6 x7 x10 x11 i) := by
  rw [val_main_v125_apply, val_main_v124_apply, val_main_cst_23_apply, val_main_v123_apply, val_main_v122_apply,
    val_main_cst_22_apply, val_main_v121_apply, val_main_v120_apply]
  generalize val_main_v119 (F := Ideal) x0 x1 x2 x3 x4 x5 x6 x7 x10 x11 i = y
  exact logistic_spelt y

/-- The reset hidden row at node `r`: the reset gate times `h`, in that order. -/
theorem c_row (r : Fin 50000) :
    (fun k => val_main_v126 (F := Ideal) x0 x1 x2 x3 x4 x5 x6 x7 x10 x11 (ValueIdx.ix2 r k))
      = (fun k => Ideal.logistic (Cert.Spec.lin3 (fun k => x0 (ValueIdx.ix2 r k)) (fun k => val_main_v104 (F := Ideal) x0 x1 x2 x4 x5 x6 x7 (ValueIdx.ix2 r k)) (fun k => x3 (ValueIdx.ix2 r k))
          (fun k q' => x10 (ValueIdx.ix2 (⟨k.val, by omega⟩ : Fin 384) q')) (fun k q' => x10 (ValueIdx.ix2 (⟨128 + k.val, by omega⟩ : Fin 384) q')) (fun k q' => x10 (ValueIdx.ix2 (⟨256 + k.val, by omega⟩ : Fin 384) q')) (fun k' => x11 (ValueIdx.ix1 k')) k) * x3 (ValueIdx.ix2 r k)) := by
  funext k
  rw [val_main_v126_apply, v125_logistic, v119_lin]
  rfl

/-! ## The result -/

/-- The reference's result at `(r, q)` is the gated update of node `r`'s hidden row: `u * h + (1 - u) * tanh c`, the
    `1` the gate is subtracted from being the word of `1.0`. -/
theorem v137_apply (r : Fin 50000) (q : Fin 128) :
    val_main_v137 (F := Ideal) x0 x1 x2 x3 x4 x5 x6 x7 x8 x9 x10 x11 x12 x13 (ValueIdx.ix2 r q)
      = Cert.Spec.gruAt (Ideal.ofBits .f32 0x3F800000#32)
          (fun k => x0 (ValueIdx.ix2 r k))
          (fun k => Ideal.logistic (Cert.Spec.convAt (fun k' => val_main_v90 (F := Ideal) x0 x1 x2 x4 x5 x6 (ValueIdx.ix2 r k')) (fun k' => val_main_v52 (F := Ideal) x0 x1 x2 x4 x5 x6 (ValueIdx.ix2 r k')) (val_main_v61 (F := Ideal) x1 x2 (ValueIdx.ix1 r)) (fun k' => x7 (ValueIdx.ix1 k')) k))
          (fun k => x3 (ValueIdx.ix2 r k))
          (fun k q' => x8 (ValueIdx.ix2 (⟨k.val, by omega⟩ : Fin 384) q')) (fun k q' => x8 (ValueIdx.ix2 (⟨128 + k.val, by omega⟩ : Fin 384) q')) (fun k q' => x8 (ValueIdx.ix2 (⟨256 + k.val, by omega⟩ : Fin 384) q'))
          (fun k q' => x10 (ValueIdx.ix2 (⟨k.val, by omega⟩ : Fin 384) q')) (fun k q' => x10 (ValueIdx.ix2 (⟨128 + k.val, by omega⟩ : Fin 384) q')) (fun k q' => x10 (ValueIdx.ix2 (⟨256 + k.val, by omega⟩ : Fin 384) q'))
          (fun k q' => x12 (ValueIdx.ix2 (⟨k.val, by omega⟩ : Fin 384) q')) (fun k q' => x12 (ValueIdx.ix2 (⟨128 + k.val, by omega⟩ : Fin 384) q')) (fun k q' => x12 (ValueIdx.ix2 (⟨256 + k.val, by omega⟩ : Fin 384) q'))
          (fun k => x9 (ValueIdx.ix1 k)) (fun k => x11 (ValueIdx.ix1 k)) (fun k => x13 (ValueIdx.ix1 k)) q := by
  rw [val_main_v137_apply, val_main_v133_apply, val_main_v136_apply, val_main_v135_apply, val_main_v134_apply,
    val_main_cst_24_apply, val_main_v132_apply, v115_logistic, v109_lin, v131_lin, c_row, g_row]
  rfl

end Cert.ReferenceIdeal.Stages

end
-- ==== Proof.Bridge.lean ====
/-
  The two programs compute one function.  Stage by stage, the kernel program's arrays are the reference's:
  the projection `x @ W1` (a row-by-column sum on both sides), the normalisation (where the degree's two
  spellings, `1 + (0 + Σ w)` scattered at the destination as given and `1 + Σ w` scattered at the
  destination normalised the Python way, agree because every destination is non-negative), the edge
  coefficient and the two neighbour aggregations (the same host operations of equal operands), the second
  projection after the rectifier, and the gated update, whose 384-wide products against the concatenated
  features split into three 128-wide ones.  Only associativity and commutativity of `+` on the extended
  reals are used: no input needs to be finite.
-/
import proofs.«156280_j19628000542754_1_alg».proof.Defs
import proofs.«156280_j19628000542754_1_alg».proof.Proof.RunValue
import proofs.«156280_j19628000542754_1_alg».proof.Proof.R0
import proofs.«156280_j19628000542754_1_alg».proof.Proof.R1
import proofs.«156280_j19628000542754_1_alg».proof.Proof.R2
import proofs.«156280_j19628000542754_1_alg».proof.Proof.KHostA
import proofs.«156280_j19628000542754_1_alg».proof.Proof.KHostB
import proofs.«156280_j19628000542754_1_alg».proof.Proof.KLayout
import proofs.«156280_j19628000542754_1_alg».proof.Proof.PreDeg
import proofs.«156280_j19628000542754_1_alg».proof.Proof.RefStages

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.Read

/-! ## The host operations the two programs share, read as one term

At an abstract float family, so that the comparison is of the two spellings and never of values. -/

section Shared
variable {F : FTy → Type} [FloatOps F] (m : (ℓ : Loc nD τ sig) → Buf (Elt F) ℓ)

/-- An argument array of the kernel program on core `c`. -/
abbrev arg (b : Ref sig .tc) (c : Dev nD) : Buf (Elt F) ((c.tc : Thread nD τ).loc b) := m ((c.tc : Thread nD τ).loc b)

/-- The reference's normalisation is the inverse square root of the degree scattered at the NORMALISED destination. -/
theorem ref_dinv (c : Dev nD) :
    val_main_v13 (F := F) (arg m main_arg1 c) (arg m main_arg2 c)
      = Host.rsqrt (Host.scatterAdd scatter_S50000_S1600000x1_S1600000_n_0_0_1
          (broadcastInDim S50000 ![] bcast_S_S50000 (constant S_ .f32 0x3F800000#32))
          (KT.col (KT.norm (KT.dst m c))) (KT.wgt m c)) := rfl

/-- The reference's edge coefficient is the kernel's, taken from the reference's normalisation. -/
theorem ref_coef (c : Dev nD) :
    val_main_v29 (F := F) (arg m main_arg1 c) (arg m main_arg2 c)
      = KT.coefOf m c (val_main_v13 (F := F) (arg m main_arg1 c) (arg m main_arg2 c)) := rfl

/-- The reference's first aggregation is the kernel's aggregation of the reference's coefficient and projection. -/
theorem ref_agg1 (c : Dev nD) :
    val_main_v42 (F := F) (arg m main_arg0 c) (arg m main_arg1 c) (arg m main_arg2 c) (arg m main_arg4 c)
      = KT.aggOf m c (val_main_v29 (F := F) (arg m main_arg1 c) (arg m main_arg2 c))
          (val_main_v4 (F := F) (arg m main_arg0 c) (arg m main_arg4 c)) := rfl

/-- And its second aggregation, of the second projection. -/
theorem ref_agg2 (c : Dev nD) :
    val_main_v90 (F := F) (arg m main_arg0 c) (arg m main_arg1 c) (arg m main_arg2 c) (arg m main_arg4 c) (arg m main_arg5 c) (arg m main_arg6 c)
      = KT.aggOf m c (val_main_v77 (F := F) (arg m main_arg1 c) (arg m main_arg2 c))
          (val_main_v52 (F := F) (arg m main_arg0 c) (arg m main_arg1 c) (arg m main_arg2 c) (arg m main_arg4 c) (arg m main_arg5 c) (arg m main_arg6 c)) := rfl

end Shared

/-! ## Stage by stage at the ideal instance -/

variable (m : (ℓ : Loc nD τ sig) → Buf (Elt Ideal) ℓ) (ρ : Dev nD → PrngReg)

/-- The first projection. -/
theorem xw1_eq (c : Dev nD) :
    KHostA.XW1 m ρ c = val_main_v4 (F := Ideal) (arg m main_arg0 c) (arg m main_arg4 c) := by
  funext i
  obtain ⟨r, q, rfl⟩ : ∃ (r : Fin 50000) (q : Fin 128), i = ix2 r q := ⟨i 0, i 1, eq_ix2 i⟩
  refine (R0.arr_apply (V1 m ρ) c r q).trans ?_
  have hX : R0.aX (V1 m ρ) c = arg m main_arg0 c := KHostA.V1_arg0 m ρ c
  have hW : R0.aW (V1 m ρ) c = arg m main_arg4 c := KHostA.V1_arg4 m ρ c
  rw [Cert.ReferenceIdeal.Stages.v4_apply, hX, hW]

variable (hpre : Cert.Pre_KernelIdeal m)
include hpre

/-- The normalisation: the kernel's degree `1 + (0 + Σ)` is the reference's `1 + Σ`, and a non-negative
    destination is its own normalisation. -/
theorem dinv_eq (c : Dev nD) :
    KT.dinv m c = val_main_v13 (F := Ideal) (arg m main_arg1 c) (arg m main_arg2 c) := by
  rw [ref_dinv m c, Cert.PreDeg.norm_dst m hpre c]
  unfold KT.dinv
  rw [Cert.PreDeg.deg_eq m c]

/-- The edge coefficient. -/
theorem coef_eq (c : Dev nD) :
    KT.coef m c = val_main_v29 (F := Ideal) (arg m main_arg1 c) (arg m main_arg2 c) := by
  rw [ref_coef m c, ← dinv_eq m hpre c]

/-- The first aggregation. -/
theorem agg1_eq (c : Dev nD) :
    KT.agg m c (KHostA.XW1 m ρ c)
      = val_main_v42 (F := Ideal) (arg m main_arg0 c) (arg m main_arg1 c) (arg m main_arg2 c) (arg m main_arg4 c) := by
  rw [ref_agg1 m c, ← coef_eq m hpre c, ← xw1_eq m ρ c]

/-- The second projection, after the rectified first layer. -/
theorem xw2_eq (c : Dev nD) :
    KHostB.XW2 m ρ c
      = val_main_v52 (F := Ideal) (arg m main_arg0 c) (arg m main_arg1 c) (arg m main_arg2 c) (arg m main_arg4 c) (arg m main_arg5 c) (arg m main_arg6 c) := by
  funext i
  obtain ⟨r, q, rfl⟩ : ∃ (r : Fin 50000) (q : Fin 128), i = ix2 r q := ⟨i 0, i 1, eq_ix2 i⟩
  refine (R1.arr_apply (V3 m ρ) c r q).trans ?_
  have hA : R1.aAgg (V3 m ρ) c
      = val_main_v42 (F := Ideal) (arg m main_arg0 c) (arg m main_arg1 c) (arg m main_arg2 c) (arg m main_arg4 c) :=
    (KHostA.V3_v42 m ρ c).trans (agg1_eq m ρ hpre c)
  have hX : R1.aXw (V3 m ρ) c = val_main_v4 (F := Ideal) (arg m main_arg0 c) (arg m main_arg4 c) :=
    (KHostA.V3_v29 m ρ c).trans (xw1_eq m ρ c)
  have hD : R1.aD (V3 m ρ) c (ix2 r 0) = val_main_v13 (F := Ideal) (arg m main_arg1 c) (arg m main_arg2 c) (ix1 r) :=
    (congrFun (KHostA.V3_v26 m ρ c) (ix2 r 0)).trans
      ((KLayout.dcol_apply m c r).trans (congrFun (dinv_eq m hpre c) (ix1 r)))
  have hB : ∀ k' : Fin 128, R1.aB (V3 m ρ) c (ix2 0 k') = arg m main_arg5 c (ix1 k') := fun k' =>
    (congrFun (KHostA.V3_v27 m ρ c) (ix2 0 k')).trans (KLayout.brow_apply (F := Ideal) _ k')
  have hW : R1.aW (V3 m ρ) c = arg m main_arg6 c := KHostA.V3_arg6 m ρ c
  rw [Cert.ReferenceIdeal.Stages.v52_apply, hA, hX, hD, hW]
  simp only [hB]

/-- The second aggregation. -/
theorem agg2_eq (c : Dev nD) :
    KT.agg m c (KHostB.XW2 m ρ c)
      = val_main_v90 (F := Ideal) (arg m main_arg0 c) (arg m main_arg1 c) (arg m main_arg2 c) (arg m main_arg4 c) (arg m main_arg5 c) (arg m main_arg6 c) := by
  rw [ref_agg2 m c, Cert.ReferenceIdeal.Stages.v77_eq, ← coef_eq m hpre c, ← xw2_eq m ρ hpre c]

/-- The result: the gated update of every node row. -/
theorem out_eq (c : Dev nD) :
    KHostB.OUT m ρ c
      = val_main_v137 (F := Ideal) (arg m main_arg0 c) (arg m main_arg1 c) (arg m main_arg2 c) (arg m main_arg3 c) (arg m main_arg4 c)
          (arg m main_arg5 c) (arg m main_arg6 c) (arg m main_arg7 c) (arg m main_arg8 c) (arg m main_arg9 c) (arg m main_arg10 c)
          (arg m main_arg11 c) (arg m main_arg12 c) (arg m main_arg13 c) := by
  funext i
  obtain ⟨r, q, rfl⟩ : ∃ (r : Fin 50000) (q : Fin 128), i = ix2 r q := ⟨i 0, i 1, eq_ix2 i⟩
  refine (R2.arr_apply (V5 m ρ) c r q).trans ?_
  have hA : R2.aAgg (V5 m ρ) c
      = val_main_v90 (F := Ideal) (arg m main_arg0 c) (arg m main_arg1 c) (arg m main_arg2 c) (arg m main_arg4 c) (arg m main_arg5 c) (arg m main_arg6 c) :=
    (KHostB.V5_v56 m ρ c).trans (agg2_eq m ρ hpre c)
  have hXw : R2.aXw (V5 m ρ) c
      = val_main_v52 (F := Ideal) (arg m main_arg0 c) (arg m main_arg1 c) (arg m main_arg2 c) (arg m main_arg4 c) (arg m main_arg5 c) (arg m main_arg6 c) :=
    (KHostB.V5_v43 m ρ c).trans (xw2_eq m ρ hpre c)
  have hD : R2.aD (V5 m ρ) c (ix2 r 0) = val_main_v13 (F := Ideal) (arg m main_arg1 c) (arg m main_arg2 c) (ix1 r) :=
    (congrFun (KHostB.V5_v26 m ρ c) (ix2 r 0)).trans
      ((KLayout.dcol_apply m c r).trans (congrFun (dinv_eq m hpre c) (ix1 r)))
  have hB2 : ∀ k' : Fin 128, R2.aB2 (V5 m ρ) c (ix2 0 k') = arg m main_arg7 c (ix1 k') := fun k' =>
    (congrFun (KHostB.V5_v28 m ρ c) (ix2 0 k')).trans (KLayout.brow_apply (F := Ideal) _ k')
  have hBu : ∀ k' : Fin 128, R2.aBu (V5 m ρ) c (ix2 0 k') = arg m main_arg9 c (ix1 k') := fun k' =>
    (congrFun (KHostB.V5_v66 m ρ c) (ix2 0 k')).trans (KLayout.brow_apply (F := Ideal) _ k')
  have hBr : ∀ k' : Fin 128, R2.aBr (V5 m ρ) c (ix2 0 k') = arg m main_arg11 c (ix1 k') := fun k' =>
    (congrFun (KHostB.V5_v67 m ρ c) (ix2 0 k')).trans (KLayout.brow_apply (F := Ideal) _ k')
  have hBc : ∀ k' : Fin 128, R2.aBc (V5 m ρ) c (ix2 0 k') = arg m main_arg13 c (ix1 k') := fun k' =>
    (congrFun (KHostB.V5_v68 m ρ c) (ix2 0 k')).trans (KLayout.brow_apply (F := Ideal) _ k')
  have hX : R2.aX (V5 m ρ) c = arg m main_arg0 c := KHostB.V5_arg0 m ρ c
  have hH : R2.aH (V5 m ρ) c = arg m main_arg3 c := KHostB.V5_arg3 m ρ c
  have hux : ∀ k q' : Fin 128, R2.aWux (V5 m ρ) c (ix2 k q') = arg m main_arg8 c (ix2 (⟨k.val, by omega⟩ : Fin 384) q') := fun k q' =>
    (congrFun (KHostB.V5_v57 m ρ c) (ix2 k q')).trans (KLayout.slice0_apply (F := Ideal) (arg m main_arg8 c) k q')
  have hug : ∀ k q' : Fin 128, R2.aWug (V5 m ρ) c (ix2 k q') = arg m main_arg8 c (ix2 (⟨128 + k.val, by omega⟩ : Fin 384) q') := fun k q' =>
    (congrFun (KHostB.V5_v58 m ρ c) (ix2 k q')).trans (KLayout.slice128_apply (F := Ideal) (arg m main_arg8 c) k q')
  have huh : ∀ k q' : Fin 128, R2.aWuh (V5 m ρ) c (ix2 k q') = arg m main_arg8 c (ix2 (⟨256 + k.val, by omega⟩ : Fin 384) q') := fun k q' =>
    (congrFun (KHostB.V5_v59 m ρ c) (ix2 k q')).trans (KLayout.slice256_apply (F := Ideal) (arg m main_arg8 c) k q')
  have hrx : ∀ k q' : Fin 128, R2.aWrx (V5 m ρ) c (ix2 k q') = arg m main_arg10 c (ix2 (⟨k.val, by omega⟩ : Fin 384) q') := fun k q' =>
    (congrFun (KHostB.V5_v60 m ρ c) (ix2 k q')).trans (KLayout.slice0_apply (F := Ideal) (arg m main_arg10 c) k q')
  have hrg : ∀ k q' : Fin 128, R2.aWrg (V5 m ρ) c (ix2 k q') = arg m main_arg10 c (ix2 (⟨128 + k.val, by omega⟩ : Fin 384) q') := fun k q' =>
    (congrFun (KHostB.V5_v61 m ρ c) (ix2 k q')).trans (KLayout.slice128_apply (F := Ideal) (arg m main_arg10 c) k q')
  have hrh : ∀ k q' : Fin 128, R2.aWrh (V5 m ρ) c (ix2 k q') = arg m main_arg10 c (ix2 (⟨256 + k.val, by omega⟩ : Fin 384) q') := fun k q' =>
    (congrFun (KHostB.V5_v62 m ρ c) (ix2 k q')).trans (KLayout.slice256_apply (F := Ideal) (arg m main_arg10 c) k q')
  have hcx : ∀ k q' : Fin 128, R2.aWcx (V5 m ρ) c (ix2 k q') = arg m main_arg12 c (ix2 (⟨k.val, by omega⟩ : Fin 384) q') := fun k q' =>
    (congrFun (KHostB.V5_v63 m ρ c) (ix2 k q')).trans (KLayout.slice0_apply (F := Ideal) (arg m main_arg12 c) k q')
  have hcg : ∀ k q' : Fin 128, R2.aWcg (V5 m ρ) c (ix2 k q') = arg m main_arg12 c (ix2 (⟨128 + k.val, by omega⟩ : Fin 384) q') := fun k q' =>
    (congrFun (KHostB.V5_v64 m ρ c) (ix2 k q')).trans (KLayout.slice128_apply (F := Ideal) (arg m main_arg12 c) k q')
  have hch : ∀ k q' : Fin 128, R2.aWch (V5 m ρ) c (ix2 k q') = arg m main_arg12 c (ix2 (⟨256 + k.val, by omega⟩ : Fin 384) q') := fun k q' =>
    (congrFun (KHostB.V5_v65 m ρ c) (ix2 k q')).trans (KLayout.slice256_apply (F := Ideal) (arg m main_arg12 c) k q')
  rw [Cert.ReferenceIdeal.Stages.v137_apply, Cert.ReferenceIdeal.Stages.v61_eq, hA, hXw, hD, hX, hH]
  simp only [hB2, hBu, hBr, hBc, hux, hug, huh, hrx, hrg, hrh, hcx, hcg, hch]

end Cert.Bridge

end
-- ==== Proof.lean ====
/-
  A two-layer graph convolution followed by a gated recurrent update over 50000 nodes and 1.6 million weighted
  edges, as three tiled kernels (the projection `x @ W1`; the rectified first layer fused with the projection by
  `W2`; the logistic second layer fused with the three gates) among host gathers and scatter-sums, against the
  same network written with whole-array operations.

  Under the precondition (every float input finite, every destination node index non-negative) both idealized
  programs end with the same 50000 x 128 array: `out = u * h + (1 - u) * c` with
  `u = σ([x, g, h] Wu + bu)`, `r = σ([x, g, h] Wr + br)`, `c = tanh([x, g, r * h] Wc + bc)`,
  `g = σ(Â (relu(Â (x W1) + b1) W2) + b2)`, where `Â` is the symmetrically normalised weighted adjacency with
  self loops.  The destination's sign matters in one place only: the reference counts an edge into the degree of
  node `dst + 50000` when `dst` is negative, the kernel program does not; elsewhere the two read and write at
  the same places.  The three frames are the generated ones (the reference's from its generated run); the
  idealization rewrote nothing, so `preserves` is trivial.
-/
import proofs.«156280_j19628000542754_1_alg».proof.Defs
import proofs.«156280_j19628000542754_1_alg».proof.Proof.Gen.Kernel
import proofs.«156280_j19628000542754_1_alg».proof.Proof.Gen.Kernel.Frame
import proofs.«156280_j19628000542754_1_alg».proof.Proof.Gen.KernelIdeal
import proofs.«156280_j19628000542754_1_alg».proof.Proof.Gen.KernelIdeal.Frame
import proofs.«156280_j19628000542754_1_alg».proof.Proof.Gen.ReferenceIdeal
import proofs.«156280_j19628000542754_1_alg».proof.Proof.Gen.ReferenceIdeal.Run
import proofs.«156280_j19628000542754_1_alg».proof.Proof.Gen.ReferenceIdeal.Read
import proofs.«156280_j19628000542754_1_alg».proof.Proof.Gen.Pre_finite_inputs
import proofs.«156280_j19628000542754_1_alg».proof.Proof.Bridge

noncomputable section

namespace Cert.Proof

open Idealize.ShloMosaic Idealize.SL.Sem

/-- The word-level kernel program terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the gated update of every node row:
    the kernel program's result array is read off its run region by region, the reference's off its run stage by
    stage, and the two are one function of the arguments. -/
theorem algebraic : Cert.algebraic_KernelIdeal_ReferenceIdeal := by
  intro m ρ m' ρ' hpre hagree
  refine ⟨fun c => Cert.KernelIdeal.KHostB.OUT m ρ c, ?_, ?_⟩
  · exact (θ_run Cert.KernelIdeal.defs _ _).mono
      (fun _ h c => ⟨(h c).1.trans (Cert.KernelIdeal.KHostB.W6_v69 m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v137_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2.1, (hagree c).2.2.2.2.2.2.2.2.2.2.2.2.2]
    exact (Cert.Bridge.out_eq m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
